-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S8x64x64 : Shape := ⟨3, ![8, 64, 64]⟩
abbrev S64x64 : Shape := ⟨2, ![64, 64]⟩
abbrev S64 : Shape := ⟨1, ![64]⟩
abbrev S_ : Shape := ⟨0, ![]⟩
abbrev S1x3200000 : Shape := ⟨2, ![1, 3200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_v29 : IVec S_ 1) (main_v34 : IVec S3200000 1) : IVec S_ 1 :=
  let main_c_11 : IVec S_ 1 := constantI S_ 1 1#1
  let main_v35 : IVec S_ 1 := (fun x v => Host.reduce IntOp.andi x v reducesTo_S3200000_S_d0 h_S_) main_v34 main_c_11
  let main_v36 : IVec S_ 1 := andi main_v29 main_v35
  main_v36

def fn_part1 {F : FTy → Type} [FloatOps F] (main_arg1 : IVec S2x3200000 32) (main_arg2 : IVec S3200000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : IVec S1x3200000 32 := (extractStridedSlice S1x3200000 ![1, 0] · slices_S2x3200000_S1x3200000_1_0) main_arg1
  let main_v20 : IVec S3200000 32 := shapeCast S3200000 main_v19 shapeCasts_S1x3200000_S3200000
  let main_c_6 : IVec S_ 32 := constantI S_ 32 0#32
  let main_v21 : IVec S3200000 32 := broadcastInDim S3200000 ![] bcast_S_S3200000 main_c_6
  let main_v22 : IVec S3200000 1 := cmpi .sge main_v20 main_v21
  let main_v23 : IVec S1x3200000 32 := (extractStridedSlice S1x3200000 ![1, 0] · slices_S2x3200000_S1x3200000_1_0) main_arg1
  let main_v24 : IVec S3200000 32 := shapeCast S3200000 main_v23 shapeCasts_S1x3200000_S3200000
  let main_c_7 : IVec S_ 32 := constantI S_ 32 100000#32
  let main_v25 : IVec S3200000 32 := broadcastInDim S3200000 ![] bcast_S_S3200000 main_c_7
  let main_v26 : IVec S3200000 1 := cmpi .slt main_v24 main_v25
  let main_v27 : IVec S3200000 1 := andi main_v22 main_v26
  let main_c_8 : IVec S_ 1 := constantI S_ 1 1#1
  let main_v28 : IVec S_ 1 := (fun x v => Host.reduce IntOp.andi x v reducesTo_S3200000_S_d0 h_S_) main_v27 main_c_8
  let main_v29 : IVec S_ 1 := andi main_v18 main_v28
  let main_c_9 : IVec S_ 32 := constantI S_ 32 0#32
  let main_v30 : IVec S3200000 32 := broadcastInDim S3200000 ![] bcast_S_S3200000 main_c_9
  let main_v31 : IVec S3200000 1 := cmpi .sge main_arg2 main_v30
  let main_c_10 : IVec S_ 32 := constantI S_ 32 8#32
  let main_v32 : IVec S3200000 32 := broadcastInDim S3200000 ![] bcast_S_S3200000 main_c_10
  let main_v33 : IVec S3200000 1 := cmpi .slt main_arg2 main_v32
  let main_v34 : IVec S3200000 1 := andi main_v31 main_v33
  fn_part2 (F := F) main_v29 main_v34

def fn {F : FTy → Type} [FloatOps F] (main_arg0 : FVec F S100000x64 .f32) (main_arg1 : IVec S2x3200000 32) (main_arg2 : IVec S3200000 32) (main_arg3 : FVec F S8x64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S8x64x64 .f32 := Host.absf main_arg3
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S8x64x64 : Shape := ⟨3, ![8, 64, 64]⟩
abbrev S64x64 : Shape := ⟨2, ![64, 64]⟩
abbrev S64 : Shape := ⟨1, ![64]⟩
abbrev S1x3200000 : Shape := ⟨2, ![1, 3200000]⟩
abbrev S_ : Shape := ⟨0, ![]⟩
abbrev S3200000x1 : Shape := ⟨2, ![3200000, 1]⟩
abbrev S3200000x64 : Shape := ⟨2, ![3200000, 64]⟩
abbrev S800000x64 : Shape := ⟨2, ![800000, 64]⟩
abbrev S800000 : Shape := ⟨1, ![800000]⟩
abbrev S100000x8 : Shape := ⟨2, ![100000, 8]⟩
abbrev S100000x512 : Shape := ⟨2, ![100000, 512]⟩
abbrev S512x64 : Shape := ⟨2, ![512, 64]⟩
abbrev S1x64 : Shape := ⟨2, ![1, 64]⟩
abbrev S8 : Shape := ⟨1, ![8]⟩
abbrev S8x1 : Shape := ⟨2, ![8, 1]⟩
abbrev S512 : Shape := ⟨1, ![512]⟩
abbrev S1x512 : Shape := ⟨2, ![1, 512]⟩
abbrev S8x512 : Shape := ⟨2, ![8, 512]⟩
abbrev S2000x64 : Shape := ⟨2, ![2000, 64]⟩
abbrev S2000x512 : Shape := ⟨2, ![2000, 512]⟩
abbrev S2000x8 : Shape := ⟨2, ![2000, 8]⟩

abbrev nBuf : Space → Nat
  | .hbm => 73
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .i32⟩
  | .hbm, ⟨3, _⟩ => ⟨S8x64x64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S100000x64, .bf16⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x64, .bf16⟩
  | .hbm, ⟨24, _⟩ => ⟨S3200000x64, .f32⟩
  | .hbm, ⟨25, _⟩ => ⟨S_, .f32⟩
  | .hbm, ⟨26, _⟩ => ⟨S800000x64, .f32⟩
  | .hbm, ⟨27, _⟩ => ⟨S3200000x1, .i32⟩
  | .hbm, ⟨28, _⟩ => ⟨S800000x64, .f32⟩
  | .hbm, ⟨29, _⟩ => ⟨S_, .f32⟩
  | .hbm, ⟨30, _⟩ => ⟨S3200000, .f32⟩
  | .hbm, ⟨31, _⟩ => ⟨S_, .f32⟩
  | .hbm, ⟨32, _⟩ => ⟨S800000, .f32⟩
  | .hbm, ⟨33, _⟩ => ⟨S3200000x1, .i32⟩
  | .hbm, ⟨34, _⟩ => ⟨S800000, .f32⟩
  | .hbm, ⟨35, _⟩ => ⟨S_, .f32⟩
  | .hbm, ⟨36, _⟩ => ⟨S_, .f32⟩
  | .hbm, ⟨37, _⟩ => ⟨S800000, .f32⟩
  | .hbm, ⟨38, _⟩ => ⟨S800000, .f32⟩
  | .hbm, ⟨39, _⟩ => ⟨S_, .f32⟩
  | .hbm, ⟨40, _⟩ => ⟨S800000, .f32⟩
  | .hbm, ⟨41, _⟩ => ⟨S800000, .f32⟩
  | .hbm, ⟨42, _⟩ => ⟨S100000x8, .f32⟩
  | .hbm, ⟨43, _⟩ => ⟨S100000x512, .f32⟩
  | .hbm, ⟨44, _⟩ => ⟨S512x64, .f32⟩
  | .hbm, ⟨45, _⟩ => ⟨S1x64, .f32⟩
  | .hbm, ⟨46, _⟩ => ⟨S8, .i32⟩
  | .hbm, ⟨47, _⟩ => ⟨S8x1, .i32⟩
  | .hbm, ⟨48, _⟩ => ⟨S512, .i32⟩
  | .hbm, ⟨49, _⟩ => ⟨S1x512, .i32⟩
  | .hbm, ⟨50, _⟩ => ⟨S_, .i32⟩
  | .hbm, ⟨51, _⟩ => ⟨S_, .i32⟩
  | .hbm, ⟨52, _⟩ => ⟨S1x512, .i32⟩
  | .hbm, ⟨53, _⟩ => ⟨S1x512, .i32⟩
  | .hbm, ⟨54, _⟩ => ⟨S1x512, .i32⟩
  | .hbm, ⟨55, _⟩ => ⟨S_, .i32⟩
  | .hbm, ⟨56, _⟩ => ⟨S1x512, .i32⟩
  | .hbm, ⟨57, _⟩ => ⟨S1x512, .i1⟩
  | .hbm, ⟨58, _⟩ => ⟨S1x512, .i32⟩
  | .hbm, ⟨59, _⟩ => ⟨S1x512, .i32⟩
  | .hbm, ⟨60, _⟩ => ⟨S_, .i32⟩
  | .hbm, ⟨61, _⟩ => ⟨S1x512, .i32⟩
  | .hbm, ⟨62, _⟩ => ⟨S1x512, .i1⟩
  | .hbm, ⟨63, _⟩ => ⟨S1x512, .i1⟩
  | .hbm, ⟨64, _⟩ => ⟨S_, .i32⟩
  | .hbm, ⟨65, _⟩ => ⟨S1x512, .i32⟩
  | .hbm, ⟨66, _⟩ => ⟨S1x512, .i32⟩
  | .hbm, ⟨67, _⟩ => ⟨S1x512, .i32⟩
  | .hbm, ⟨68, _⟩ => ⟨S8x512, .i32⟩
  | .hbm, ⟨69, _⟩ => ⟨S8x512, .i32⟩
  | .hbm, ⟨70, _⟩ => ⟨S8x512, .i1⟩
  | .hbm, ⟨71, _⟩ => ⟨S8x512, .f32⟩
  | .hbm, ⟨72, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x512, .f32⟩
  | .local _ .vmem, ⟨3, _⟩ => ⟨S2000x512, .f32⟩
  | .local _ .vmem, ⟨4, _⟩ => ⟨S2000x8, .f32⟩
  | .local _ .vmem, ⟨5, _⟩ => ⟨S2000x8, .f32⟩
  | .local _ .vmem, ⟨6, _⟩ => ⟨S8x512, .f32⟩
  | .local _ .vmem, ⟨7, _⟩ => ⟨S64x64, .f32⟩
  | .local _ .vmem, ⟨8, _⟩ => ⟨S512x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bitsLt_bf16_f32 : FTy.bits .bf16 < FTy.bits .f32
  bcast_S3200000_S3200000x1_0 : S3200000.BroadcastsInDim S3200000x1 (![0] : Fin 1 → Fin S3200000x1.rank)
  bcast_S_S800000x64 : S_.BroadcastsInDim S800000x64 (![] : Fin 0 → Fin S800000x64.rank)
  bcast_S_S800000 : S_.BroadcastsInDim S800000 (![] : Fin 0 → Fin S800000.rank)
  shapeCasts_S800000_S100000x8 : S800000.ShapeCasts S100000x8
  shapeCasts_S800000x64_S100000x512 : S800000x64.ShapeCasts S100000x512
  shapeCasts_S8x64x64_S512x64 : S8x64x64.ShapeCasts S512x64
  shapeCasts_S64_S1x64 : S64.ShapeCasts S1x64
  bcast_S8_S8x1_0 : S8.BroadcastsInDim S8x1 (![0] : Fin 1 → Fin S8x1.rank)
  bcast_S512_S1x512_1 : S512.BroadcastsInDim S1x512 (![1] : Fin 1 → Fin S1x512.rank)
  bcast_S_S1x512 : S_.BroadcastsInDim S1x512 (![] : Fin 0 → Fin S1x512.rank)
  bcast_S8x1_S8x512_0_1 : S8x1.BroadcastsInDim S8x512 (![0, 1] : Fin 2 → Fin S8x512.rank)
  bcast_S1x512_S8x512_0_1 : S1x512.BroadcastsInDim S8x512 (![0, 1] : Fin 2 → Fin S8x512.rank)
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S100000x64_S3200000x1_S3200000x64_1_0_n_n_0_1_164_wf : GatherDims.WF S100000x64 S3200000x1 S3200000x64 [1] [0] [] [0] [] 1 ![1, 64]
  scatter_S800000x64_S3200000x1_S3200000x64_1_0_0_1_wf : ScatterDims.WF S800000x64 S3200000x1 S3200000x64 [1] [0] [0] 1
  scatter_S800000_S3200000x1_S3200000_n_0_0_1_wf : ScatterDims.WF S800000 S3200000x1 S3200000 [] [0] [0] 1
  dot_S2000x8_S8x512_S2000x512_1_0_0_1_n_n_wf : DotDims.WF S2000x8 S8x512 S2000x512 [1] [0] [0] [1] [] []
  dot_S2000x64_S64x64_S2000x64_1_0_0_1_n_n_wf : DotDims.WF S2000x64 S64x64 S2000x64 [1] [0] [0] [1] [] []
  dot_S2000x512_S512x64_S2000x64_1_0_0_1_n_n_wf : DotDims.WF S2000x512 S512x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8.size a ≤ S100000x8.size a
  hwx0_2 : ∀ i : grid0.Coords, EltTy.bits .f32 = 32 ∨ (Rect.block (s := S100000x8) S2000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S800000x64_S3200000x1_S3200000x64_1_0_0_1 : ScatterDims S800000x64 S3200000x1 S3200000x64 where
  updateWindowDims := [1]
  insertedWindowDims := [0]
  scatterDimsToOperandDims := [0]
  indexVectorDim := 1
  wf := scatter_S800000x64_S3200000x1_S3200000x64_1_0_0_1_wf
def scatter_S800000_S3200000x1_S3200000_n_0_0_1 : ScatterDims S800000 S3200000x1 S3200000 where
  updateWindowDims := []
  insertedWindowDims := [0]
  scatterDimsToOperandDims := [0]
  indexVectorDim := 1
  wf := scatter_S800000_S3200000x1_S3200000_n_0_0_1_wf
def dot_S2000x8_S8x512_S2000x512_1_0_0_1_n_n : DotDims S2000x8 S8x512 S2000x512 where
  lhsContracting := [1]
  rhsContracting := [0]
  lhsNonContracting := [0]
  rhsNonContracting := [1]
  lhsBatch := []
  rhsBatch := []
  wf := dot_S2000x8_S8x512_S2000x512_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S8x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S8x64x64 : Shape := ⟨3, ![8, 64, 64]⟩
abbrev S64x64 : Shape := ⟨2, ![64, 64]⟩
abbrev S64 : Shape := ⟨1, ![64]⟩
abbrev S1x3200000 : Shape := ⟨2, ![1, 3200000]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S100000 : Shape := ⟨1, ![100000]⟩
abbrev S100000x1 : Shape := ⟨2, ![100000, 1]⟩
abbrev S1x64x64 : Shape := ⟨3, ![1, 64, 64]⟩

abbrev nBuf : Space → Nat
  | .hbm => 231
  | .vmem => 0
  | .smem => 0
  | _ => 0

abbrev hbmTy0_0 (i : Nat) : BufTy := match i % 128 with
  | 0 => ⟨S100000x64, .f32⟩
  | 1 => ⟨S2x3200000, .i32⟩
  | 2 => ⟨S3200000, .i32⟩
  | 3 => ⟨S8x64x64, .f32⟩
  | 4 => ⟨S64x64, .f32⟩
  | 5 => ⟨S64, .f32⟩
  | 6 => ⟨S1x3200000, .i32⟩
  | 7 => ⟨S3200000, .i32⟩
  | 8 => ⟨S1x3200000, .i32⟩
  | 9 => ⟨S3200000, .i32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000x64, .f32⟩
  | 19 => ⟨S100000x64, .f32⟩
  | 20 => ⟨S1x64, .f32⟩
  | 21 => ⟨S100000x64, .f32⟩
  | 22 => ⟨S100000x64, .f32⟩
  | 23 => ⟨S_, .i32⟩
  | 24 => ⟨S3200000, .i32⟩
  | 25 => ⟨S3200000, .i1⟩
  | 26 => ⟨S3200000, .f32⟩
  | 27 => ⟨S3200000x1, .f32⟩
  | 28 => ⟨S3200000x64, .f32⟩
  | 29 => ⟨S3200000x64, .f32⟩
  | 30 => ⟨S_, .f32⟩
  | 31 => ⟨S100000x64, .f32⟩
  | 32 => ⟨S3200000x1, .i32⟩
  | 33 => ⟨S100000x64, .f32⟩
  | 34 => ⟨S_, .f32⟩
  | 35 => ⟨S100000, .f32⟩
  | 36 => ⟨S3200000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S100000x64, .f32⟩
  | 49 => ⟨S_, .i32⟩
  | 50 => ⟨S3200000, .i32⟩
  | 51 => ⟨S3200000, .i1⟩
  | 52 => ⟨S3200000, .f32⟩
  | 53 => ⟨S3200000x1, .f32⟩
  | 54 => ⟨S3200000x64, .f32⟩
  | 55 => ⟨S3200000x64, .f32⟩
  | 56 => ⟨S_, .f32⟩
  | 57 => ⟨S100000x64, .f32⟩
  | 58 => ⟨S3200000x1, .i32⟩
  | 59 => ⟨S100000x64, .f32⟩
  | 60 => ⟨S_, .f32⟩
  | 61 => ⟨S100000, .f32⟩
  | 62 => ⟨S3200000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S100000x1, .f32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S100000x64, .f32⟩
  | 75 => ⟨S_, .i32⟩
  | 76 => ⟨S3200000, .i32⟩
  | 77 => ⟨S3200000, .i1⟩
  | 78 => ⟨S3200000, .f32⟩
  | 79 => ⟨S3200000x1, .f32⟩
  | 80 => ⟨S3200000x64, .f32⟩
  | 81 => ⟨S3200000x64, .f32⟩
  | 82 => ⟨S_, .f32⟩
  | 83 => ⟨S100000x64, .f32⟩
  | 84 => ⟨S3200000x1, .i32⟩
  | 85 => ⟨S100000x64, .f32⟩
  | 86 => ⟨S_, .f32⟩
  | 87 => ⟨S100000, .f32⟩
  | 88 => ⟨S3200000x1, .i32⟩
  | 89 => ⟨S100000, .f32⟩
  | 90 => ⟨S_, .f32⟩
  | 91 => ⟨S_, .f32⟩
  | 92 => ⟨S100000, .f32⟩
  | 93 => ⟨S100000, .f32⟩
  | 94 => ⟨S100000x1, .f32⟩
  | 95 => ⟨S100000x64, .f32⟩
  | 96 => ⟨S100000x64, .f32⟩
  | 97 => ⟨S1x64x64, .f32⟩
  | 98 => ⟨S64x64, .f32⟩
  | 99 => ⟨S100000x64, .f32⟩
  | 100 => ⟨S100000x64, .f32⟩
  | 101 => ⟨S_, .i32⟩
  | 102 => ⟨S3200000, .i32⟩
  | 103 => ⟨S3200000, .i1⟩
  | 104 => ⟨S3200000, .f32⟩
  | 105 => ⟨S3200000x1, .f32⟩
  | 106 => ⟨S3200000x64, .f32⟩
  | 107 => ⟨S3200000x64, .f32⟩
  | 108 => ⟨S_, .f32⟩
  | 109 => ⟨S100000x64, .f32⟩
  | 110 => ⟨S3200000x1, .i32⟩
  | 111 => ⟨S100000x64, .f32⟩
  | 112 => ⟨S_, .f32⟩
  | 113 => ⟨S100000, .f32⟩
  | 114 => ⟨S3200000x1, .i32⟩
  | 115 => ⟨S100000, .f32⟩
  | 116 => ⟨S_, .f32⟩
  | 117 => ⟨S_, .f32⟩
  | 118 => ⟨S100000, .f32⟩
  | 119 => ⟨S100000, .f32⟩
  | 120 => ⟨S100000x1, .f32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S100000x64, .f32⟩
  | 127 => ⟨S_, .i32⟩
  | _ => ⟨S100000x64, .f32⟩

abbrev hbmTy0_1 (i : Nat) : BufTy := match i % 128 with
  | 0 => ⟨S3200000, .i32⟩
  | 1 => ⟨S3200000, .i1⟩
  | 2 => ⟨S3200000, .f32⟩
  | 3 => ⟨S3200000x1, .f32⟩
  | 4 => ⟨S3200000x64, .f32⟩
  | 5 => ⟨S3200000x64, .f32⟩
  | 6 => ⟨S_, .f32⟩
  | 7 => ⟨S100000x64, .f32⟩
  | 8 => ⟨S3200000x1, .i32⟩
  | 9 => ⟨S100000x64, .f32⟩
  | 10 => ⟨S_, .f32⟩
  | 11 => ⟨S100000, .f32⟩
  | 12 => ⟨S3200000x1, .i32⟩
  | 13 => ⟨S100000, .f32⟩
  | 14 => ⟨S_, .f32⟩
  | 15 => ⟨S_, .f32⟩
  | 16 => ⟨S100000, .f32⟩
  | 17 => ⟨S100000, .f32⟩
  | 18 => ⟨S100000x1, .f32⟩
  | 19 => ⟨S100000x64, .f32⟩
  | 20 => ⟨S100000x64, .f32⟩
  | 21 => ⟨S1x64x64, .f32⟩
  | 22 => ⟨S64x64, .f32⟩
  | 23 => ⟨S100000x64, .f32⟩
  | 24 => ⟨S100000x64, .f32⟩
  | 25 => ⟨S_, .i32⟩
  | 26 => ⟨S3200000, .i32⟩
  | 27 => ⟨S3200000, .i1⟩
  | 28 => ⟨S3200000, .f32⟩
  | 29 => ⟨S3200000x1, .f32⟩
  | 30 => ⟨S3200000x64, .f32⟩
  | 31 => ⟨S3200000x64, .f32⟩
  | 32 => ⟨S_, .f32⟩
  | 33 => ⟨S100000x64, .f32⟩
  | 34 => ⟨S3200000x1, .i32⟩
  | 35 => ⟨S100000x64, .f32⟩
  | 36 => ⟨S_, .f32⟩
  | 37 => ⟨S100000, .f32⟩
  | 38 => ⟨S3200000x1, .i32⟩
  | 39 => ⟨S100000, .f32⟩
  | 40 => ⟨S_, .f32⟩
  | 41 => ⟨S_, .f32⟩
  | 42 => ⟨S100000, .f32⟩
  | 43 => ⟨S100000, .f32⟩
  | 44 => ⟨S100000x1, .f32⟩
  | 45 => ⟨S100000x64, .f32⟩
  | 46 => ⟨S100000x64, .f32⟩
  | 47 => ⟨S1x64x64, .f32⟩
  | 48 => ⟨S64x64, .f32⟩
  | 49 => ⟨S100000x64, .f32⟩
  | 50 => ⟨S100000x64, .f32⟩
  | 51 => ⟨S_, .i32⟩
  | 52 => ⟨S3200000, .i32⟩
  | 53 => ⟨S3200000, .i1⟩
  | 54 => ⟨S3200000, .f32⟩
  | 55 => ⟨S3200000x1, .f32⟩
  | 56 => ⟨S3200000x64, .f32⟩
  | 57 => ⟨S3200000x64, .f32⟩
  | 58 => ⟨S_, .f32⟩
  | 59 => ⟨S100000x64, .f32⟩
  | 60 => ⟨S3200000x1, .i32⟩
  | 61 => ⟨S100000x64, .f32⟩
  | 62 => ⟨S_, .f32⟩
  | 63 => ⟨S100000, .f32⟩
  | 64 => ⟨S3200000x1, .i32⟩
  | 65 => ⟨S100000, .f32⟩
  | 66 => ⟨S_, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S100000x64, .f32⟩
  | 77 => ⟨S_, .i32⟩
  | 78 => ⟨S3200000, .i32⟩
  | 79 => ⟨S3200000, .i1⟩
  | 80 => ⟨S3200000, .f32⟩
  | 81 => ⟨S3200000x1, .f32⟩
  | 82 => ⟨S3200000x64, .f32⟩
  | 83 => ⟨S3200000x64, .f32⟩
  | 84 => ⟨S_, .f32⟩
  | 85 => ⟨S100000x64, .f32⟩
  | 86 => ⟨S3200000x1, .i32⟩
  | 87 => ⟨S100000x64, .f32⟩
  | 88 => ⟨S_, .f32⟩
  | 89 => ⟨S100000, .f32⟩
  | 90 => ⟨S3200000x1, .i32⟩
  | 91 => ⟨S100000, .f32⟩
  | 92 => ⟨S_, .f32⟩
  | 93 => ⟨S_, .f32⟩
  | 94 => ⟨S100000, .f32⟩
  | 95 => ⟨S100000, .f32⟩
  | 96 => ⟨S100000x1, .f32⟩
  | 97 => ⟨S100000x64, .f32⟩
  | 98 => ⟨S100000x64, .f32⟩
  | 99 => ⟨S1x64x64, .f32⟩
  | 100 => ⟨S64x64, .f32⟩
  | 101 => ⟨S100000x64, .f32⟩
  | 102 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_call1_v0 : Ref sig .tc := ⟨.hbm, 65, rfl⟩
abbrev main_call1_v1 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_call2_v0 : Ref sig .tc := ⟨.hbm, 91, rfl⟩
abbrev main_call2_v1 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_call3_v0 : Ref sig .tc := ⟨.hbm, 117, rfl⟩
abbrev main_call3_v1 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_17 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_18 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_19 : Ref sig .tc := ⟨.hbm, 142, rfl⟩
abbrev main_call4_v0 : Ref sig .tc := ⟨.hbm, 143, rfl⟩
abbrev main_call4_v1 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_20 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_21 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_22 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_23 : Ref sig .tc := ⟨.hbm, 168, rfl⟩
abbrev main_call5_v0 : Ref sig .tc := ⟨.hbm, 169, rfl⟩
abbrev main_call5_v1 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_24 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_25 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_26 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_27 : Ref sig .tc := ⟨.hbm, 194, rfl⟩
abbrev main_call6_v0 : Ref sig .tc := ⟨.hbm, 195, rfl⟩
abbrev main_call6_v1 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_c_28 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_29 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_30 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_31 : Ref sig .tc := ⟨.hbm, 220, rfl⟩
abbrev main_call7_v0 : Ref sig .tc := ⟨.hbm, 221, rfl⟩
abbrev main_call7_v1 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  gather_S100000x64_S3200000x1_S3200000x64_1_0_n_n_0_1_164_wf : GatherDims.WF S100000x64 S3200000x1 S3200000x64 [1] [0] [] [0] [] 1 ![1, 64]
  dot_S100000x64_S64x64_S100000x64_1_0_0_1_n_n_wf : DotDims.WF S100000x64 S64x64 S100000x64 [1] [0] [0] [1] [] []
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.Spec.lean ====
/-
  The common mathematical form of both programs, over the extended reals.

  A relational graph convolution with mean aggregation: node n's output row is
    x[n] · root + bias + Σ_r (mean over the in-edges of n of type r of x[src]) · W[r].
  One program divides each per-relation neighbour sum by its clipped count and multiplies by W[r], relation by
  relation; the other lays the eight per-relation sums side by side in one row of 8·64 entries, scales every entry by
  the reciprocal clipped count of its relation (spread over the 64 features of the relation by a product with a 0/1
  matrix), and multiplies once by the eight W[r] stacked to a 512×64 matrix.  This module states both forms as functions
  of the arrays they are built from and proves them equal given that the side-by-side sums and counts are the
  per-relation ones.
-/
import Idealize.ShloMosaic.PureOps.Ideal
import Idealize.ShloMosaic.Lib.ValueIdx

noncomputable section

open scoped BigOperators

namespace Cert.Rgcn

open Idealize.ShloMosaic Idealize.ShloMosaic.ValueIdx

abbrev SN64 : Shape := ⟨2, ![100000, 64]⟩
abbrev SN512 : Shape := ⟨2, ![100000, 512]⟩
abbrev SN8 : Shape := ⟨2, ![100000, 8]⟩
abbrev SN : Shape := ⟨1, ![100000]⟩
abbrev S8x512' : Shape := ⟨2, ![8, 512]⟩
abbrev S64x64' : Shape := ⟨2, ![64, 64]⟩
abbrev S512x64' : Shape := ⟨2, ![512, 64]⟩
abbrev S1x64' : Shape := ⟨2, ![1, 64]⟩
abbrev S64' : Shape := ⟨1, ![64]⟩
abbrev S8x64x64' : Shape := ⟨3, ![8, 64, 64]⟩

/-- The float one, as both programs write it (the lower bound of the clipped counts). -/
def one32 : EReal := Ideal.ofBits .f32 0x3F800000#32

/-- The fused form: what the tiled region computes from the seven arrays it is handed — the node features X, the
    per-relation sums side by side SC, the reciprocal clipped counts INV, the 0/1 spreading matrix OH, the root
    weight RT, the stacked relation weights WC and the bias as a one-row matrix B2. -/
def fusedOut (X : SN64.Idx → EReal) (SC : SN512.Idx → EReal) (INV : SN8.Idx → EReal) (OH : S8x512'.Idx → EReal)
    (RT : S64x64'.Idx → EReal) (WC : S512x64'.Idx → EReal) (B2 : S1x64'.Idx → EReal) : SN64.Idx → EReal :=
  fun i =>
    ((∑ k : Fin 64, X (ix2 (i 0) k) * RT (ix2 k (i 1)))
      + ∑ c : Fin 512, (SC (ix2 (i 0) c) * ∑ r : Fin 8, INV (ix2 (i 0) r) * OH (ix2 r c)) * WC (ix2 c (i 1)))
    + B2 (ix2 (0 : Fin 1) (i 1))

/-- One relation's term of the relation-by-relation form: the row of mean neighbour features times W[r]. -/
def relTerm (S : Fin 8 → SN64.Idx → EReal) (C : Fin 8 → SN.Idx → EReal) (W : S8x64x64'.Idx → EReal)
    (i : SN64.Idx) (r : Fin 8) : EReal :=
  ∑ k : Fin 64, Ideal.div (S r (ix2 (i 0) k)) (max one32 (C r (ix1 (i 0)))) * W (ix3 r k (i 1))

/-- The relation-by-relation form: root term plus bias, then the eight relations' terms added one after the other. -/
def relOut (S : Fin 8 → SN64.Idx → EReal) (C : Fin 8 → SN.Idx → EReal) (X : SN64.Idx → EReal)
    (W : S8x64x64'.Idx → EReal) (RT : S64x64'.Idx → EReal) (B : S64'.Idx → EReal) : SN64.Idx → EReal :=
  fun i =>
    ((((((((((∑ k : Fin 64, X (ix2 (i 0) k) * RT (ix2 k (i 1))) + B (ix1 (i 1)))
      + relTerm S C W i 0) + relTerm S C W i 1) + relTerm S C W i 2) + relTerm S C W i 3)
      + relTerm S C W i 4) + relTerm S C W i 5) + relTerm S C W i 6) + relTerm S C W i 7)

end Cert.Rgcn

end
-- ==== Proof.KernelArray.lean ====
/-
  The tiled region's result as one whole array.

  The region walks the 100000 node rows in 50 blocks of 2000; at each block it multiplies the block of node features
  by the root weight, the block of side-by-side relation sums (each entry scaled by its relation's reciprocal count)
  by the stacked relation weights, adds the two products and the bias row, and writes the 2000×64 block back.  Every
  output row lies in exactly one block, so the array after the run is the fused form of the seven arrays the region
  was handed, index by index.
-/
import proofs.«420744_j1262720385450_3_alg».proof.Proof.Spec
import proofs.«420744_j1262720385450_3_alg».proof.Proof.Gen.KernelIdeal.Value
import Idealize.ShloMosaic.Lib.Pipeline.Value
import Idealize.ShloMosaic.Lib.ValueIdx
import Idealize.ShloMosaic.PureOps.Ideal.Laws

noncomputable section

namespace Cert.Rgcn.KernelArray

open Cert.KernelIdeal Cert.KernelIdeal.Gen Idealize.ShloMosaic Idealize.ShloMosaic.TcCoe Idealize.SL.Sem
open Idealize.ShloMosaic.ValueIdx Cert.Rgcn

open scoped BigOperators

variable (m : (ℓ : Loc nD τ sig) → Buf (Elt Ideal) ℓ) (ρ : Dev nD → PrngReg)

/-! ## The three matrix products of the body, each read at one entry

Over the extended reals a product into a zero accumulator is the plain sum of the operands' products over the
contracted coordinate; a change of float format is the identity. -/

/-! ### Reciprocal counts [2000, 8] times the 0/1 spreading matrix [8, 512]

Where the product's entry (i₀, i₁) at contraction coordinate k reads its operands: the left one at (i₀, k), the right
one at (k, i₁).  One statement per operand axis. -/

theorem lhs_spread_0 (i : S2000x512.Idx) (q : dot_S2000x8_S8x512_S2000x512_1_0_0_1_n_n.contr.Idx) :
    (dot_S2000x8_S8x512_S2000x512_1_0_0_1_n_n.lhsIdx i q 0).val = (i 0).val := by
  unfold DotDims.lhsIdx
  rw [dif_neg (show ¬(0 : Fin S2000x8.rank) ∈ dot_S2000x8_S8x512_S2000x512_1_0_0_1_n_n.lhsBatch by decide), dif_pos (show (0 : Fin S2000x8.rank) ∈ dot_S2000x8_S8x512_S2000x512_1_0_0_1_n_n.lhsNonContracting by decide)]
  rfl
theorem lhs_spread_1 (i : S2000x512.Idx) (q : dot_S2000x8_S8x512_S2000x512_1_0_0_1_n_n.contr.Idx) :
    (dot_S2000x8_S8x512_S2000x512_1_0_0_1_n_n.lhsIdx i q 1).val = (q ⟨0, by decide⟩).val :=
  dot_S2000x8_S8x512_S2000x512_1_0_0_1_n_n.lhsIdx_val_of_single rfl i q
theorem rhs_spread_0 (i : S2000x512.Idx) (q : dot_S2000x8_S8x512_S2000x512_1_0_0_1_n_n.contr.Idx) :
    (dot_S2000x8_S8x512_S2000x512_1_0_0_1_n_n.rhsIdx i q 0).val = (q ⟨0, by decide⟩).val :=
  dot_S2000x8_S8x512_S2000x512_1_0_0_1_n_n.rhsIdx_val_of_single rfl i q
theorem rhs_spread_1 (i : S2000x512.Idx) (q : dot_S2000x8_S8x512_S2000x512_1_0_0_1_n_n.contr.Idx) :
    (dot_S2000x8_S8x512_S2000x512_1_0_0_1_n_n.rhsIdx i q 1).val = (i 1).val := by
  unfold DotDims.rhsIdx
  rw [dif_neg (show ¬(1 : Fin S8x512.rank) ∈ dot_S2000x8_S8x512_S2000x512_1_0_0_1_n_n.rhsBatch by decide), dif_pos (show (1 : Fin S8x512.rank) ∈ dot_S2000x8_S8x512_S2000x512_1_0_0_1_n_n.rhsNonContracting by decide)]
  rfl

/-- Entry (p, c) of the spread reciprocal counts: the sum over the 8 relations of the row's reciprocal count times the 0/1 entry (r, c). -/
theorem spread_apply {φ₁ φ₂ : FTy} (a : FVec Ideal S2000x8 φ₁) (b : FVec Ideal S8x512 φ₂) (p : Fin 2000) (q : Fin 512) :
    matmul dot_S2000x8_S8x512_S2000x512_1_0_0_1_n_n none a b (constant S2000x512 .f32 0x00000000#32) (ix2 p q)
      = ∑ k : Fin 8, a (ix2 p k) * b (ix2 k q) := by
  simp only [matmul]
  rw [Ideal.matmul_constant_zero_apply, ← Equiv.sum_comp (ValueIdx.contrEquiv1 dot_S2000x8_S8x512_S2000x512_1_0_0_1_n_n 8 rfl rfl).symm]
  refine Finset.sum_congr rfl fun k _ => ?_
  have hk := ValueIdx.contrEquiv1_symm_val dot_S2000x8_S8x512_S2000x512_1_0_0_1_n_n 8 rfl rfl k
  have el : dot_S2000x8_S8x512_S2000x512_1_0_0_1_n_n.lhsIdx (ix2 p q) ((ValueIdx.contrEquiv1 dot_S2000x8_S8x512_S2000x512_1_0_0_1_n_n 8 rfl rfl).symm k) = ix2 p k := funext fun a => Fin.ext (by
    match a with
    | ⟨0, _⟩ => exact lhs_spread_0 _ _
    | ⟨1, _⟩ => exact (lhs_spread_1 _ _).trans hk)
  have er : dot_S2000x8_S8x512_S2000x512_1_0_0_1_n_n.rhsIdx (ix2 p q) ((ValueIdx.contrEquiv1 dot_S2000x8_S8x512_S2000x512_1_0_0_1_n_n 8 rfl rfl).symm k) = ix2 k q := funext fun a => Fin.ext (by
    match a with
    | ⟨0, _⟩ => exact (rhs_spread_0 _ _).trans hk
    | ⟨1, _⟩ => exact rhs_spread_1 _ _)
  rw [el, er]

/-! ### Node features [2000, 64] times the root weight [64, 64]

Where the product's entry (i₀, i₁) at contraction coordinate k reads its operands: the left one at (i₀, k), the right
one at (k, i₁).  One statement per operand axis. -/

theorem lhs_rootProd_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_rootProd_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_rootProd_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_rootProd_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry (p, q) of the root term: the sum over the 64 input features. -/
theorem rootProd_apply {φ₁ φ₂ : FTy} (a : FVec Ideal S2000x64 φ₁) (b : FVec Ideal S64x64 φ₂) (p : Fin 2000) (q : Fin 64) :
    matmul dot_S2000x64_S64x64_S2000x64_1_0_0_1_n_n none a b (constant S2000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs_rootProd_0 _ _
    | ⟨1, _⟩ => exact (lhs_rootProd_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs_rootProd_0 _ _).trans hk
    | ⟨1, _⟩ => exact rhs_rootProd_1 _ _)
  rw [el, er]

/-! ### Scaled side-by-side sums [2000, 512] times the stacked relation weights [512, 64]

Where the product's entry (i₀, i₁) at contraction coordinate k reads its operands: the left one at (i₀, k), the right
one at (k, i₁).  One statement per operand axis. -/

theorem lhs_relProd_0 (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem lhs_relProd_1 (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q
theorem rhs_relProd_0 (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q
theorem rhs_relProd_1 (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- Entry (p, q) of the relation term: the sum over the 8·64 side-by-side columns. -/
theorem relProd_apply {φ₁ φ₂ : FTy} (a : FVec Ideal S2000x512 φ₁) (b : FVec Ideal S512x64 φ₂) (p : Fin 2000) (q : Fin 64) :
    matmul dot_S2000x512_S512x64_S2000x64_1_0_0_1_n_n none a b (constant S2000x64 .f32 0x00000000#32) (ix2 p q)
      = ∑ k : Fin 512, a (ix2 p k) * b (ix2 k q) := by
  simp only [matmul]
  rw [Ideal.matmul_constant_zero_apply, ← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx (ix2 p q) ((ValueIdx.contrEquiv1 dot_S2000x512_S512x64_S2000x64_1_0_0_1_n_n 512 rfl rfl).symm k) = ix2 p k := funext fun a => Fin.ext (by
    match a with
    | ⟨0, _⟩ => exact lhs_relProd_0 _ _
    | ⟨1, _⟩ => exact (lhs_relProd_1 _ _).trans hk)
  have er : dot_S2000x512_S512x64_S2000x64_1_0_0_1_n_n.rhsIdx (ix2 p q) ((ValueIdx.contrEquiv1 dot_S2000x512_S512x64_S2000x64_1_0_0_1_n_n 512 rfl rfl).symm k) = ix2 k q := funext fun a => Fin.ext (by
    match a with
    | ⟨0, _⟩ => exact (rhs_relProd_0 _ _).trans hk
    | ⟨1, _⟩ => exact rhs_relProd_1 _ _)
  rw [el, er]

/-! ## The body's result at one entry of a block -/

/-- The bias row spread over the 2000 rows of a block reads the row's entry of the same column. -/
theorem biasRows_apply (x6 : Vec Ideal S1x64 .f32) (p : Fin 2000) (q : Fin 64) :
    broadcastTo S2000x64 x6 broadcasts_S1x64_S2000x64 (ix2 p q) = x6 (ix2 (0 : Fin 1) q) := by
  refine broadcastTo_apply x6 broadcasts_S1x64_S2000x64 (ix2 p q) (ix2 (0 : Fin 1) q) fun a => ?_
  match a with
  | ⟨0, _⟩ => rfl
  | ⟨1, _⟩ => rfl

/-- Entry (p, q) of what the body computes from its seven loaded blocks: the root term, plus the relation term in
    which every side-by-side sum is first scaled by the reciprocal count of its relation, plus the bias. -/
theorem pay_apply (x0 : Vec Ideal S2000x64 .f32) (x4 : Vec Ideal S64x64 .f32) (x5 : Vec Ideal S512x64 .f32)
    (x2 : Vec Ideal S2000x8 .f32) (x3 : Vec Ideal S8x512 .f32) (x1 : Vec Ideal S2000x512 .f32) (x6 : Vec Ideal S1x64 .f32)
    (p : Fin 2000) (q : Fin 64) :
    k0_pay1 (F := Ideal) x0 x4 x5 x2 x3 x1 x6 (ix2 p q)
      = ((∑ k : Fin 64, x0 (ix2 p k) * x4 (ix2 k q))
          + ∑ cc : Fin 512, (x1 (ix2 p cc) * ∑ r : Fin 8, x2 (ix2 p r) * x3 (ix2 r cc)) * x5 (ix2 cc q))
        + x6 (ix2 (0 : Fin 1) q) := by
  unfold k0_pay1
  simp only [shapeCast_self]
  rw [addf_apply, addf_apply, rootProd_apply, relProd_apply, biasRows_apply]
  refine congrArg₂ (· + ·) (congrArg₂ (· + ·) (Finset.sum_congr rfl fun k _ => ?_) (Finset.sum_congr rfl fun cc _ => ?_)) rfl
  · rw [truncf_apply, truncf_apply]
  · rw [truncf_apply, truncf_apply, mulf_apply, spread_apply]

/-- The body's entry (p, q) is the fused form at (n, q) once each loaded block is known to hold the entries of its
    array that row n and column q call for. -/
theorem fused_of_blocks (x0 : Vec Ideal S2000x64 .f32) (x1 : Vec Ideal S2000x512 .f32) (x2 : Vec Ideal S2000x8 .f32)
    (x3 : Vec Ideal S8x512 .f32) (x4 : Vec Ideal S64x64 .f32) (x5 : Vec Ideal S512x64 .f32) (x6 : Vec Ideal S1x64 .f32)
    (X : SN64.Idx → EReal) (SC : SN512.Idx → EReal) (INV : SN8.Idx → EReal) (OH : S8x512'.Idx → EReal)
    (RT : S64x64'.Idx → EReal) (WC : S512x64'.Idx → EReal) (B2 : S1x64'.Idx → EReal)
    (p : Fin 2000) (q : Fin 64) (n : Fin 100000)
    (h0 : ∀ k : Fin 64, x0 (ix2 p k) = X (ix2 n k))
    (h1 : ∀ cc : Fin 512, x1 (ix2 p cc) = SC (ix2 n cc))
    (h2 : ∀ r : Fin 8, x2 (ix2 p r) = INV (ix2 n r))
    (h3 : ∀ (r : Fin 8) (cc : Fin 512), x3 (ix2 r cc) = OH (ix2 r cc))
    (h4 : ∀ k : Fin 64, x4 (ix2 k q) = RT (ix2 k q))
    (h5 : ∀ cc : Fin 512, x5 (ix2 cc q) = WC (ix2 cc q))
    (h6 : x6 (ix2 (0 : Fin 1) q) = B2 (ix2 (0 : Fin 1) q)) :
    k0_pay1 (F := Ideal) x0 x4 x5 x2 x3 x1 x6 (ix2 p q) = fusedOut X SC INV OH RT WC B2 (ix2 n q) := by
  rw [pay_apply]
  unfold fusedOut
  simp only [h0, h1, h2, h3, h4, h5, h6]

/-! ## The blocks: which entries of an array a window hands to the body at point t -/

/-- Both offsets of a whole-buffer access are zero. -/
theorem hz : (![0, 0] : Fin 2 → Nat) = fun _ => 0 := funext fun a => by
  match a with
  | ⟨0, _⟩ => rfl
  | ⟨1, _⟩ => rfl

/-- Where the blocks sit: at grid point t the three row-blocked inputs and the output are at block row t, and the four
    small operands are whole (block (0, 0)). -/
theorem block_places : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Any array of node-feature shape read through the first window's block at point t: entry (p, k) of the block is entry (2000·t + p, k) of the array. -/
theorem featRows_read (t : Fin cfg0.N) (A : SN64.Idx → EReal) (p : Fin 2000) (k : Fin 64) (n : Fin 100000)
    (hn : n.val = t.val * 2000 + p.val) :
    (((cfg0.win 0).blk t).view.read (Elt Ideal) A : Vec Ideal S2000x64 .f32) (ix2 p k) = A (ix2 n k) := by
  have e := block_places t
  have e0 : win0_0.index t (0 : Fin 2) = t.val := e.1
  have e1 : win0_0.index t (1 : Fin 2) = 0 := e.2.1
  show A (((cfg0.win 0).blk t).view.emb (ix2 p k)) = A (ix2 n k)
  refine congrArg A (funext fun a => Fin.ext ?_)
  match a with
  | ⟨0, _⟩ => show win0_0.index t (0 : Fin 2) * 2000 + 1 * p.val = n.val; rw [e0, hn]; omega
  | ⟨1, _⟩ => show win0_0.index t (1 : Fin 2) * 64 + 1 * k.val = k.val; rw [e1]; omega

/-- The same for the window of the side-by-side relation sums. -/
theorem sumsRows_read (t : Fin cfg0.N) (A : SN512.Idx → EReal) (p : Fin 2000) (cc : Fin 512) (n : Fin 100000)
    (hn : n.val = t.val * 2000 + p.val) :
    (((cfg0.win 1).blk t).view.read (Elt Ideal) A : Vec Ideal S2000x512 .f32) (ix2 p cc) = A (ix2 n cc) := by
  have e := block_places t
  have e0 : win0_1.index t (0 : Fin 2) = t.val := e.2.2.1
  have e1 : win0_1.index t (1 : Fin 2) = 0 := e.2.2.2.1
  show A (((cfg0.win 1).blk t).view.emb (ix2 p cc)) = A (ix2 n cc)
  refine congrArg A (funext fun a => Fin.ext ?_)
  match a with
  | ⟨0, _⟩ => show win0_1.index t (0 : Fin 2) * 2000 + 1 * p.val = n.val; rw [e0, hn]; omega
  | ⟨1, _⟩ => show win0_1.index t (1 : Fin 2) * 512 + 1 * cc.val = cc.val; rw [e1]; omega

/-- The same for the window of the reciprocal counts. -/
theorem invRows_read (t : Fin cfg0.N) (A : SN8.Idx → EReal) (p : Fin 2000) (r : Fin 8) (n : Fin 100000)
    (hn : n.val = t.val * 2000 + p.val) :
    (((cfg0.win 2).blk t).view.read (Elt Ideal) A : Vec Ideal S2000x8 .f32) (ix2 p r) = A (ix2 n r) := by
  have e := block_places t
  have e0 : win0_2.index t (0 : Fin 2) = t.val := e.2.2.2.2.1
  have e1 : win0_2.index t (1 : Fin 2) = 0 := e.2.2.2.2.2.1
  show A (((cfg0.win 2).blk t).view.emb (ix2 p r)) = A (ix2 n r)
  refine congrArg A (funext fun a => Fin.ext ?_)
  match a with
  | ⟨0, _⟩ => show win0_2.index t (0 : Fin 2) * 2000 + 1 * p.val = n.val; rw [e0, hn]; omega
  | ⟨1, _⟩ => show win0_2.index t (1 : Fin 2) * 8 + 1 * r.val = r.val; rw [e1]; omega

/-- The window of the 0/1 spreading matrix is the whole matrix at every point. -/
theorem spread_read (t : Fin cfg0.N) (A : S8x512'.Idx → EReal) (a' : Fin 8) (b' : Fin 512) :
    (((cfg0.win 3).blk t).view.read (Elt Ideal) A : Vec Ideal S8x512 .f32) (ix2 a' b') = A (ix2 a' b') := by
  have e := block_places t
  have e0 : win0_3.index t (0 : Fin 2) = 0 := e.2.2.2.2.2.2.1
  have e1 : win0_3.index t (1 : Fin 2) = 0 := e.2.2.2.2.2.2.2.1
  show A (((cfg0.win 3).blk t).view.emb (ix2 a' b')) = A (ix2 a' b')
  refine congrArg A (funext fun a => Fin.ext ?_)
  match a with
  | ⟨0, _⟩ => show win0_3.index t (0 : Fin 2) * 8 + 1 * a'.val = a'.val; rw [e0]; omega
  | ⟨1, _⟩ => show win0_3.index t (1 : Fin 2) * 512 + 1 * b'.val = b'.val; rw [e1]; omega

/-- The window of the root weight is the whole matrix at every point. -/
theorem root_read (t : Fin cfg0.N) (A : S64x64'.Idx → EReal) (a' : Fin 64) (b' : Fin 64) :
    (((cfg0.win 4).blk t).view.read (Elt Ideal) A : Vec Ideal S64x64 .f32) (ix2 a' b') = A (ix2 a' b') := by
  have e := block_places t
  have e0 : win0_4.index t (0 : Fin 2) = 0 := e.2.2.2.2.2.2.2.2.1
  have e1 : win0_4.index t (1 : Fin 2) = 0 := e.2.2.2.2.2.2.2.2.2.1
  show A (((cfg0.win 4).blk t).view.emb (ix2 a' b')) = A (ix2 a' b')
  refine congrArg A (funext fun a => Fin.ext ?_)
  match a with
  | ⟨0, _⟩ => show win0_4.index t (0 : Fin 2) * 64 + 1 * a'.val = a'.val; rw [e0]; omega
  | ⟨1, _⟩ => show win0_4.index t (1 : Fin 2) * 64 + 1 * b'.val = b'.val; rw [e1]; omega

/-- The window of the stacked relation weights is the whole matrix at every point. -/
theorem stack_read (t : Fin cfg0.N) (A : S512x64'.Idx → EReal) (a' : Fin 512) (b' : Fin 64) :
    (((cfg0.win 5).blk t).view.read (Elt Ideal) A : Vec Ideal S512x64 .f32) (ix2 a' b') = A (ix2 a' b') := by
  have e := block_places t
  have e0 : win0_5.index t (0 : Fin 2) = 0 := e.2.2.2.2.2.2.2.2.2.2.1
  have e1 : win0_5.index t (1 : Fin 2) = 0 := e.2.2.2.2.2.2.2.2.2.2.2.1
  show A (((cfg0.win 5).blk t).view.emb (ix2 a' b')) = A (ix2 a' b')
  refine congrArg A (funext fun a => Fin.ext ?_)
  match a with
  | ⟨0, _⟩ => show win0_5.index t (0 : Fin 2) * 512 + 1 * a'.val = a'.val; rw [e0]; omega
  | ⟨1, _⟩ => show win0_5.index t (1 : Fin 2) * 64 + 1 * b'.val = b'.val; rw [e1]; omega

/-- The window of the bias row is the whole row at every point. -/
theorem bias_read (t : Fin cfg0.N) (A : S1x64'.Idx → EReal) (a' : Fin 1) (b' : Fin 64) :
    (((cfg0.win 6).blk t).view.read (Elt Ideal) A : Vec Ideal S1x64 .f32) (ix2 a' b') = A (ix2 a' b') := by
  have e := block_places t
  have e0 : win0_6.index t (0 : Fin 2) = 0 := e.2.2.2.2.2.2.2.2.2.2.2.2.1
  have e1 : win0_6.index t (1 : Fin 2) = 0 := e.2.2.2.2.2.2.2.2.2.2.2.2.2.1
  show A (((cfg0.win 6).blk t).view.emb (ix2 a' b')) = A (ix2 a' b')
  refine congrArg A (funext fun a => Fin.ext ?_)
  match a with
  | ⟨0, _⟩ => show win0_6.index t (0 : Fin 2) * 1 + 1 * a'.val = a'.val; rw [e0]; omega
  | ⟨1, _⟩ => show win0_6.index t (1 : Fin 2) * 64 + 1 * b'.val = b'.val; rw [e1]; omega

/-! ## From blocks to the array -/

/-- Grid point t is one of 50. -/
theorem point_lt (t : Fin cfg0.N) : t.val < 50 := lt_of_lt_of_eq t.isLt N_0

/-- A 2000×64 block whose entry (p, q) is the entry (2000·t + p, q) of a whole array IS that array read through the
    result window's block at point t. -/
theorem outBlock_eq (t : Fin cfg0.N) (P : Vec Ideal S2000x64 .f32) (G : SN64.Idx → EReal)
    (h : ∀ (p : Fin 2000) (q : Fin 64) (n : Fin 100000), n.val = t.val * 2000 + p.val → P (ix2 p q) = G (ix2 n q)) :
    (cfg0.win 7).cut (grid0.coords t) P = ((cfg0.win 7).blk t).view.read (Elt Ideal) G := by
  funext j
  obtain ⟨p, q, rfl⟩ : ∃ (p : Fin 2000) (q : Fin 64), j = ix2 p q := ⟨j 0, j 1, eq_ix2 j⟩
  have ht : t.val < 50 := point_lt t
  have e := block_places t
  have e0 : win0_7.index t (0 : Fin 2) = t.val := e.2.2.2.2.2.2.2.2.2.2.2.2.2.2.1
  have e1 : win0_7.index t (1 : Fin 2) = 0 := e.2.2.2.2.2.2.2.2.2.2.2.2.2.2.2
  have hp : p.val < 2000 := p.isLt
  have hemb : ((cfg0.win 7).blk t).view.emb (ix2 p q) = ix2 (⟨t.val * 2000 + p.val, by omega⟩ : Fin 100000) q := by
    funext a; apply Fin.ext
    match a with
    | ⟨0, _⟩ => show win0_7.index t (0 : Fin 2) * 2000 + 1 * p.val = t.val * 2000 + p.val; rw [e0]; omega
    | ⟨1, _⟩ => show win0_7.index t (1 : Fin 2) * 64 + 1 * q.val = q.val; rw [e1]; omega
  show P (ix2 p q) = G (((cfg0.win 7).blk t).view.emb (ix2 p q))
  rw [hemb]
  exact h p q _ rfl

/-- An index of the result array lies in point t's block iff each coordinate lies in the block's range on its axis. -/
theorem mem_blk (t : Fin cfg0.N) (i : S100000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v39).slice (win0_7.rect t)).set ↔ _
  rw [View.set_slice_whole, Rect.mem_set_unit]
  exact Iff.rfl

/-- Every row of the result lies in a block: row n in the block of point n / 2000. -/
theorem covered (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 50 := N_0
  obtain ⟨t, htv⟩ : ∃ t : Fin cfg0.N, t.val = (i 0).val / 2000 := ⟨⟨(i 0).val / 2000, by rw [hN]; omega⟩, rfl⟩
  have e := block_places t
  have e0 : win0_7.index t (0 : Fin 2) = t.val := e.2.2.2.2.2.2.2.2.2.2.2.2.2.2.1
  have e1 : win0_7.index t (1 : Fin 2) = 0 := e.2.2.2.2.2.2.2.2.2.2.2.2.2.2.2
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; rw [e0, htv]; omega
  | ⟨1, _⟩ => show win0_7.index t (1 : Fin 2) * 64 ≤ (i 1).val ∧ (i 1).val < win0_7.index t (1 : Fin 2) * 64 + 64; rw [e1]; omega

/-- The body's result on the blocks of ANY seven arrays of the right shapes, read through the windows at point t, is
    block t of the fused form of those arrays: rows 2000·t … 2000·t + 1999. -/
theorem body_on_blocks (t : Fin cfg0.N) (A0 : SN64.Idx → EReal) (A1 : SN512.Idx → EReal) (A2 : SN8.Idx → EReal)
    (A3 : S8x512'.Idx → EReal) (A4 : S64x64'.Idx → EReal) (A5 : S512x64'.Idx → EReal) (A6 : S1x64'.Idx → EReal) :
    (cfg0.win 7).cut (grid0.coords t)
        (k0_pay1 (F := Ideal) (((cfg0.win 0).blk t).view.read (Elt Ideal) A0) (((cfg0.win 4).blk t).view.read (Elt Ideal) A4)
          (((cfg0.win 5).blk t).view.read (Elt Ideal) A5) (((cfg0.win 2).blk t).view.read (Elt Ideal) A2)
          (((cfg0.win 3).blk t).view.read (Elt Ideal) A3) (((cfg0.win 1).blk t).view.read (Elt Ideal) A1)
          (((cfg0.win 6).blk t).view.read (Elt Ideal) A6))
      = ((cfg0.win 7).blk t).view.read (Elt Ideal) (fusedOut A0 A1 A2 A3 A4 A5 A6) :=
  outBlock_eq t
    (k0_pay1 (F := Ideal) (((cfg0.win 0).blk t).view.read (Elt Ideal) A0) (((cfg0.win 4).blk t).view.read (Elt Ideal) A4)
          (((cfg0.win 5).blk t).view.read (Elt Ideal) A5) (((cfg0.win 2).blk t).view.read (Elt Ideal) A2)
          (((cfg0.win 3).blk t).view.read (Elt Ideal) A3) (((cfg0.win 1).blk t).view.read (Elt Ideal) A1)
          (((cfg0.win 6).blk t).view.read (Elt Ideal) A6))
    (fusedOut A0 A1 A2 A3 A4 A5 A6)
    fun p q n hn =>
      fused_of_blocks (((cfg0.win 0).blk t).view.read (Elt Ideal) A0) (((cfg0.win 1).blk t).view.read (Elt Ideal) A1) (((cfg0.win 2).blk t).view.read (Elt Ideal) A2)
        (((cfg0.win 3).blk t).view.read (Elt Ideal) A3) (((cfg0.win 4).blk t).view.read (Elt Ideal) A4) (((cfg0.win 5).blk t).view.read (Elt Ideal) A5)
        (((cfg0.win 6).blk t).view.read (Elt Ideal) A6) A0 A1 A2 A3 A4 A5 A6 p q n
        (fun k => featRows_read t A0 p k n hn)
        (fun cc => sumsRows_read t A1 p cc n hn)
        (fun r => invRows_read t A2 p r n hn)
        (fun r cc => spread_read t A3 r cc)
        (fun k => root_read t A4 k q)
        (fun cc => stack_read t A5 cc q)
        (bias_read t A6 0 q)

/-- What point t writes back is block t of the fused form of the seven arrays as the region finds them. -/
theorem flushed_eq (c : Dev nD) (t : Fin cfg0.N) :
    (dats m 0 c).flushed 7 t = ((cfg0.win 7).blk t).view.read (Elt Ideal)
      (fusedOut (V m c main_arg0) (V m c main_v27) (V m c main_v26) (V m c main_v38) (V m c main_arg4) (V m c main_v28) (V m c main_v29)) := by
  rw [Value.flushed7]
  unfold out0_7
  rw [View.canon_unit_zero hz]
  simp only [View.ld_unit_zero (S := S2000x64) hz, View.ld_unit_zero (S := S64x64) hz, View.ld_unit_zero (S := S512x64) hz,
    View.ld_unit_zero (S := S2000x8) hz, View.ld_unit_zero (S := S8x512) hz, View.ld_unit_zero (S := S2000x512) hz,
    View.ld_unit_zero (S := S1x64) hz]
  exact body_on_blocks t (V m c main_arg0) (V m c main_v27) (V m c main_v26) (V m c main_v38) (V m c main_arg4) (V m c main_v28) (V m c main_v29)

/-- So the result array after the run is the fused form, index by index. -/
theorem final (c : Dev nD) : (dats m 0 c).arrAt 7 cfg0.N
    = fusedOut (V m c main_arg0) (V m c main_v27) (V m c main_v26) (V m c main_v38) (V m c main_arg4) (V m c main_v28) (V m c main_v29) :=
  (dats m 0 c).arrAt_eq_of_cover 7
    (fusedOut (V m c main_arg0) (V m c main_v27) (V m c main_v26) (V m c main_v38) (V m c main_arg4) (V m c main_v28) (V m c main_v29))
    (fun t _ => flushed_eq m c t) covered

/-- After the run the result array is the fused form of the arrays the region was handed (the node features, the
    side-by-side sums, the reciprocal counts, the 0/1 spreading matrix, the root weight, the stacked relation
    weights, the bias row), and the arguments are unchanged. -/
theorem run : θ_run defs (onTc (τ := τ) (main (F := Ideal))) ⟨m, fun _ => 0, ρ⟩ fun r => ∀ c : Dev nD,
      r.2.mem ((c : Thread nD τ).loc main_v39)
        = fusedOut (V m c main_arg0) (V m c main_v27) (V m c main_v26) (V m c main_v38) (V m c main_arg4) (V m c main_v28) (V m c main_v29)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Rgcn.KernelArray

end
-- ==== Proof.KernelHost.lean ====
/-
  The arrays the tiled region is handed, as functions of the arguments.

  Before the region the host builds: the destination row dst of the edge list and the combined bin word 8·dst + rel;
  the gathered source rows; the scatter-add of the gathered rows, and of ones, over the 800000 combined bins (sums and
  counts); the reciprocal of the counts clipped at one, laid out as 100000 × 8; the sums laid out as 100000 × 512; the
  relation weights stacked as 512 × 64; the bias as a row; and the 0/1 matrix whose entry (r, c) says whether column c
  belongs to relation r, c // 64 = r.
-/
import proofs.«420744_j1262720385450_3_alg».proof.Proof.Gen.KernelIdeal.Frame
import Idealize.ShloMosaic.Lib.StableHlo.Run
import Idealize.ShloMosaic.PureOps.Ideal
import Idealize.ShloMosaic.Lib.ValueIdx

noncomputable section

namespace Cert.Rgcn.KernelHost

open Cert.KernelIdeal Cert.KernelIdeal.Gen Idealize.ShloMosaic Idealize.ShloMosaic.TcCoe Idealize.SL.Sem
open Idealize.ShloMosaic.StableHlo

/-- Row 1 of the edge list, flattened: the destination nodes. -/
def dstK (x1 : IVec S2x3200000 32) : IVec S3200000 32 :=
  shapeCast S3200000 (extractStridedSlice S1x3200000 ![1, 0] x1 slices_S2x3200000_S1x3200000_1_0) shapeCasts_S1x3200000_S3200000

/-- Row 0 of the edge list, flattened: the source nodes. -/
def srcK (x1 : IVec S2x3200000 32) : IVec S3200000 32 :=
  shapeCast S3200000 (extractStridedSlice S1x3200000 ![0, 0] x1 slices_S2x3200000_S1x3200000_0_0) shapeCasts_S1x3200000_S3200000

/-- The combined bin word 8·dst + rel. -/
def binK (x1 : IVec S2x3200000 32) (x2 : IVec S3200000 32) : IVec S3200000 32 :=
  addi (muli (dstK x1) (broadcastInDim S3200000 ![] bcast_S_S3200000 (constantI S_ 32 8#32))) x2

/-- The gather's start indices: the source nodes, a negative one moved up by the number of nodes. -/
def startK (x1 : IVec S2x3200000 32) : IVec S3200000x1 32 :=
  broadcastInDim S3200000x1 ![0] bcast_S3200000_S3200000x1_0
    (select (cmpi .slt (srcK x1) (broadcastInDim S3200000 ![] bcast_S_S3200000 (constantI S_ 32 0#32)))
      (addi (srcK x1) (broadcastInDim S3200000 ![] bcast_S_S3200000 (constantI S_ 32 100000#32))) (srcK x1))

/-- The gathered source rows. -/
def xsK (x0 : FVec Ideal S100000x64 .f32) (x1 : IVec S2x3200000 32) : FVec Ideal S3200000x64 .f32 :=
  extf .f32 (Host.gather gather_S100000x64_S3200000x1_S3200000x64_1_0_n_n_0_1_164 (truncf .bf16 x0 bitsLt_bf16_f32) (startK x1)) bitsLt_bf16_f32

/-- The bin words as a column of start indices. -/
def binColK (x1 : IVec S2x3200000 32) (x2 : IVec S3200000 32) : IVec S3200000x1 32 :=
  broadcastInDim S3200000x1 ![0] bcast_S3200000_S3200000x1_0 (binK x1 x2)

/-- The neighbour sums per combined bin. -/
def sumsK (x0 : FVec Ideal S100000x64 .f32) (x1 : IVec S2x3200000 32) (x2 : IVec S3200000 32) : FVec Ideal S800000x64 .f32 :=
  Host.scatterAdd scatter_S800000x64_S3200000x1_S3200000x64_1_0_0_1
    (broadcastInDim S800000x64 ![] bcast_S_S800000x64 (constant (F := Ideal) S_ .f32 0x00000000#32)) (binColK x1 x2) (xsK x0 x1)

/-- The in-edge counts per combined bin. -/
def countsK (x1 : IVec S2x3200000 32) (x2 : IVec S3200000 32) : FVec Ideal S800000 .f32 :=
  Host.scatterAdd scatter_S800000_S3200000x1_S3200000_n_0_0_1
    (broadcastInDim S800000 ![] bcast_S_S800000 (constant (F := Ideal) S_ .f32 0x00000000#32)) (binColK x1 x2)
    (broadcastInDim S3200000 ![] bcast_S_S3200000 (constant (F := Ideal) S_ .f32 0x3F800000#32))

/-- The reciprocal clipped counts, 100000 × 8. -/
def invK (x1 : IVec S2x3200000 32) (x2 : IVec S3200000 32) : FVec Ideal S100000x8 .f32 :=
  shapeCast S100000x8
    (Host.divf (broadcastInDim S800000 ![] bcast_S_S800000 (constant (F := Ideal) S_ .f32 0x3F800000#32))
      (maximumf (broadcastInDim S800000 ![] bcast_S_S800000 (id (constant (F := Ideal) S_ .f32 0x3F800000#32))) (countsK x1 x2)))
    shapeCasts_S800000_S100000x8

/-- The sums side by side, 100000 × 512. -/
def sumsCatK (x0 : FVec Ideal S100000x64 .f32) (x1 : IVec S2x3200000 32) (x2 : IVec S3200000 32) : FVec Ideal S100000x512 .f32 :=
  shapeCast S100000x512 (sumsK x0 x1 x2) shapeCasts_S800000x64_S100000x512

/-- The relation weights stacked, 512 × 64. -/
def wcatK (x3 : FVec Ideal S8x64x64 .f32) : FVec Ideal S512x64 .f32 := shapeCast S512x64 x3 shapeCasts_S8x64x64_S512x64

/-- The bias as a row. -/
def biasRowK (x5 : FVec Ideal S64 .f32) : FVec Ideal S1x64 .f32 := shapeCast S1x64 x5 shapeCasts_S64_S1x64

/-- The column numbers 0 … 511 as a row. -/
def colsK : IVec S1x512 32 := broadcastInDim S1x512 ![1] bcast_S512_S1x512_1 (iotaInDim S512 32 0)

/-- 64 as a row. -/
def c64K : IVec S1x512 32 := broadcastInDim S1x512 ![] bcast_S_S1x512 (id (constantI S_ 32 64#32))

/-- The column numbers floor-divided by 64 (the quotient, lowered by one where the signs differ and the remainder
    is not zero). -/
def colRelK : IVec S1x512 32 :=
  select
    (andi (cmpi .ne (signi colsK) (broadcastInDim S1x512 ![] bcast_S_S1x512 (signi (id (constantI S_ 32 64#32)))))
      (cmpi .ne (Host.remsi colsK c64K) (broadcastInDim S1x512 ![] bcast_S_S1x512 (constantI S_ 32 0#32))))
    (subi (Host.divsi colsK c64K) (broadcastInDim S1x512 ![] bcast_S_S1x512 (constantI S_ 32 1#32)))
    (Host.divsi colsK c64K)

/-- The 0/1 matrix: entry (r, c) is one when column c belongs to relation r. -/
def onehotK : FVec Ideal S8x512 .f32 :=
  uitofp .f32 (cmpi .eq
    (broadcastInDim S8x512 ![0, 1] bcast_S8x1_S8x512_0_1 (broadcastInDim S8x1 ![0] bcast_S8_S8x1_0 (iotaInDim S8 32 0)))
    (broadcastInDim S8x512 ![0, 1] bcast_S1x512_S8x512_0_1 colRelK))

variable (m : (ℓ : Loc nD τ sig) → Buf (Elt Ideal) ℓ)

theorem V_wcat (c : Dev nD) : (V m c main_v28 : S512x64.Idx → EReal) = wcatK (m ((c : Thread nD τ).loc main_arg3)) := by
  dsimp only [V]
  simp only [hostOps0, hostOps0_1, hostOps0_2, hostOps0_3, hostOps0_4, List.flatten_cons, List.flatten_nil,
    List.append_nil, List.cons_append, List.nil_append]
  after_results
  rfl

theorem V_biasRow (c : Dev nD) : (V m c main_v29 : S1x64.Idx → EReal) = biasRowK (m ((c : Thread nD τ).loc main_arg5)) := by
  dsimp only [V]
  simp only [hostOps0, hostOps0_1, hostOps0_2, hostOps0_3, hostOps0_4, List.flatten_cons, List.flatten_nil,
    List.append_nil, List.cons_append, List.nil_append]
  after_results
  rfl

end Cert.Rgcn.KernelHost

end
-- ==== Proof.KernelHostSums.lean ====
/-
  The side-by-side sums array the region is handed is the host's scatter-add of the gathered rows over the combined bins, laid out 100000 × 512.
-/
import proofs.«420744_j1262720385450_3_alg».proof.Proof.KernelHost

noncomputable section

namespace Cert.Rgcn.KernelHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 8000000 in
theorem V_sumsCat (c : Dev nD) : (V m c main_v27 : S100000x512.Idx → EReal)
    = sumsCatK (m ((c : Thread nD τ).loc main_arg0)) (m ((c : Thread nD τ).loc main_arg1)) (m ((c : Thread nD τ).loc main_arg2)) := by
  dsimp only [V]
  simp only [hostOps0, hostOps0_1, hostOps0_2, hostOps0_3, hostOps0_4, List.flatten_cons, List.flatten_nil,
    List.append_nil, List.cons_append, List.nil_append]
  after_results
  rfl

end Cert.Rgcn.KernelHost

end
-- ==== Proof.KernelHostInv.lean ====
/-
  The reciprocal-count array the region is handed is one over the clipped scatter-add of ones over the combined
  bins, laid out 100000 × 8.  The host program is read stretch by stretch: the first stretch leaves the counts and the
  literal one, the clip takes their maximum, the next stretch divides one by it and lays the quotient out, and the
  last two stretches do not write it.
-/
import proofs.«420744_j1262720385450_3_alg».proof.Proof.KernelHost
import Idealize.ShloMosaic.Lib.Pipeline.Frame

noncomputable section

namespace Cert.Rgcn.KernelHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The first stretch leaves the in-edge counts of the combined bins. -/
theorem stretch0_counts (W : Valuation τ sig (Elt Ideal)) :
    (StableHlo.after (hostOps0 (F := Ideal)) W (Proc.devRef .tc main_v22) : S800000.Idx → EReal)
      = countsK (W (Proc.devRef .tc main_arg1)) (W (Proc.devRef .tc main_arg2)) := by
  simp only [hostOps0]
  after_results
  rfl

/-- The first stretch leaves the literal one. -/
theorem stretch0_one (W : Valuation τ sig (Elt Ideal)) :
    (StableHlo.after (hostOps0 (F := Ideal)) W (Proc.devRef .tc main_cst_4) : S_.Idx → EReal)
      = constant (F := Ideal) S_ .f32 0x3F800000#32 := by
  simp only [hostOps0]
  after_results

/-- The clip takes the maximum of one and the counts. -/
theorem stretch1_clip (W : Valuation τ sig (Elt Ideal)) :
    (StableHlo.after (hostOps0_1 (F := Ideal)) W (Proc.devRef .tc main_v23) : S800000.Idx → EReal)
      = (maximumf (F := Ideal) (φ := .f32)
          (broadcastInDim S800000 ![] bcast_S_S800000 (id (W (Proc.devRef .tc main_cst_4) : FVec Ideal S_ .f32)))
          (W (Proc.devRef .tc main_v22) : FVec Ideal S800000 .f32) : S800000.Idx → EReal) := by
  simp only [hostOps0_1]
  after_results
  rfl

/-- The third stretch divides one by the clipped counts and lays the quotient out 100000 × 8. -/
theorem stretch2_inv (W : Valuation τ sig (Elt Ideal)) :
    (StableHlo.after (hostOps0_2 (F := Ideal)) W (Proc.devRef .tc main_v26) : S100000x8.Idx → EReal)
      = shapeCast S100000x8
          (Host.divf (F := Ideal) (φ := .f32) (broadcastInDim S800000 ![] bcast_S_S800000 (constant (F := Ideal) S_ .f32 0x3F800000#32))
            (W (Proc.devRef .tc main_v23) : FVec Ideal S800000 .f32)) shapeCasts_S800000_S100000x8 := by
  simp only [hostOps0_2]
  after_results
  rfl

/-- The fourth stretch does not write the reciprocal counts. -/
theorem stretch3_keeps (W : Valuation τ sig (Elt Ideal)) :
    StableHlo.after (hostOps0_3 (F := Ideal)) W (Proc.devRef .tc main_v26) = W (Proc.devRef .tc main_v26) :=
  StableHlo.after_of_forall_not_mem (b := Proc.devRef .tc main_v26) _ _ (List.forall_iff_forall_mem.mp (by
    simp only [hostOps0_3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The last stretch does not write the reciprocal counts. -/
theorem stretch4_keeps (W : Valuation τ sig (Elt Ideal)) :
    StableHlo.after (hostOps0_4 (F := Ideal)) W (Proc.devRef .tc main_v26) = W (Proc.devRef .tc main_v26) :=
  StableHlo.after_of_forall_not_mem (b := Proc.devRef .tc main_v26) _ _ (List.forall_iff_forall_mem.mp (by
    simp only [hostOps0_4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem V_inv (c : Dev nD) : (V m c main_v26 : S100000x8.Idx → EReal)
    = invK (m ((c : Thread nD τ).loc main_arg1)) (m ((c : Thread nD τ).loc main_arg2)) := by
  dsimp only [V]
  simp only [List.flatten_cons, List.flatten_nil, List.append_nil]
  rw [StableHlo.after_append, StableHlo.after_append, StableHlo.after_append, StableHlo.after_append]
  rw [stretch4_keeps, stretch3_keeps, stretch2_inv, stretch1_clip, stretch0_counts, stretch0_one]
  rfl

end Cert.Rgcn.KernelHost

end
-- ==== Proof.KernelHostOnehot.lean ====
/-
  The 0/1 matrix the region is handed is the host's comparison of the relation numbers with the column numbers floor-divided by 64.
-/
import proofs.«420744_j1262720385450_3_alg».proof.Proof.KernelHost

noncomputable section

namespace Cert.Rgcn.KernelHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 8000000 in
theorem V_onehot (c : Dev nD) : (V m c main_v38 : S8x512.Idx → EReal) = onehotK := by
  dsimp only [V]
  simp only [hostOps0, hostOps0_1, hostOps0_2, hostOps0_3, hostOps0_4, List.flatten_cons, List.flatten_nil,
    List.append_nil, List.cons_append, List.nil_append]
  after_results
  rfl

end Cert.Rgcn.KernelHost

end
-- ==== Proof.PreDecode.lean ====
/-
  What the precondition says of the integer inputs.

  Beside the finiteness of the float inputs, the precondition asks that every destination node (the second row of
  the edge list) is a node, 0 ≤ dst < 100000, and that every edge's relation is one of the eight, 0 ≤ rel < 8, both as
  signed words.  A word in [0, n) signed is below n unsigned.
-/
import proofs.«420744_j1262720385450_3_alg».proof.Pre_finite_inputs
import Idealize.ShloMosaic.Lib.ReduceAll
import Idealize.ShloMosaic.Lib.ValueIdx
import Idealize.ShloMosaic.Lib.Pipeline.Value

noncomputable section

namespace Cert.Rgcn.PreDecode

open Idealize.ShloMosaic Idealize.ShloMosaic.ValueIdx Cert.Pre_finite_inputs Cert.Pre_finite_inputs.Facts

variable [hF : Cert.Pre_finite_inputs.Facts] {F : FTy → Type} [FloatOps F]

instance : Subsingleton S_.Idx := ⟨fun a b => funext fun d => d.elim0⟩

theorem ofBool_eq_one (b : Bool) : BitVec.ofBool b = 1#1 ↔ b = true := by cases b <;> decide

/-- A word in [0, n) signed is below n unsigned. -/
theorem word_lt (w : BitVec 32) (n : Nat) (hn : n < 2 ^ 31) (h0 : IntOp.cmpi .sge w (0#32) = 1#1)
    (hlt : IntOp.cmpi .slt w (BitVec.ofNat 32 n) = 1#1) : w.toNat < n := by
  unfold IntOp.cmpi at h0 hlt
  rw [ofBool_eq_one] at h0 hlt
  simp only [BitVec.slt, BitVec.sle, decide_eq_true_eq] at h0 hlt
  have h32 := w.isLt
  unfold BitVec.toInt at h0 hlt
  split at hlt <;> simp at h0 hlt <;> omega

/-- The second row of the edge list, flattened, at edge e. -/
theorem dst_row (a1 : IVec S2x3200000 32) (e : Fin 3200000) :
    shapeCast S3200000 (extractStridedSlice S1x3200000 ![1, 0] a1 slices_S2x3200000_S1x3200000_1_0)
      shapeCasts_S1x3200000_S3200000 (ix1 e) = a1 (ix2 (1 : Fin 2) e) := by
  generalize hy : extractStridedSlice S1x3200000 ![1, 0] a1 slices_S2x3200000_S1x3200000_1_0 = y
  rw [shapeCast_apply y shapeCasts_S1x3200000_S3200000 (ix1 e) (ix2 (0 : Fin 1) e)
    (by rewrite [Shape.rowMajor_val_two, Shape.rowMajor_val_one]; have h0 := e.isLt; show 0 * 3200000 + e.val = e.val; omega)]
  rw [← hy]
  exact extractStridedSlice_apply ![1, 0] a1 slices_S2x3200000_S1x3200000_1_0 (ix2 (0 : Fin 1) e) (ix2 (1 : Fin 2) e)
    (fun a => match a with
      | ⟨0, _⟩ => by show 1 = 1 + 0; omega
      | ⟨1, _⟩ => by show e.val = 0 + e.val; omega)

/-- Under the precondition every destination word is below 100000 and every relation word below 8. -/
theorem ranges (a0 : FVec F S100000x64 .f32) (a1 : IVec S2x3200000 32) (a2 : IVec S3200000 32) (a3 : FVec F S8x64x64 .f32)
    (a4 : FVec F S64x64 .f32) (a5 : FVec F S64 .f32) (h : fn (F := F) a0 a1 a2 a3 a4 a5 = fun _ => 1#1) :
    (∀ e : Fin 3200000, (a1 (ix2 (1 : Fin 2) e)).toNat < 100000) ∧ (∀ e : Fin 3200000, (a2 (ix1 e)).toNat < 8) := by
  have e := congrFun h ix0
  dsimp only [fn, fn_part1, fn_part2] at e
  have e1 : IntOp.andi _ _ = 1#1 := e
  obtain ⟨e29, e35⟩ := IntOp.andi_eq_one.1 e1
  have e2 : IntOp.andi _ _ = 1#1 := e29
  obtain ⟨-, e28⟩ := IntOp.andi_eq_one.1 e2
  constructor
  · intro ed
    have t := Host.reduce_andi_all _ _ _ _ ix0 e28 (ix1 ed)
    have t1 : IntOp.andi _ _ = 1#1 := t
    obtain ⟨g0, g1⟩ := IntOp.andi_eq_one.1 t1
    have g0' : IntOp.cmpi .sge _ _ = 1#1 := g0
    have g1' : IntOp.cmpi .slt _ _ = 1#1 := g1
    rw [dst_row a1 ed] at g0' g1'
    exact word_lt _ 100000 (by norm_num) g0' g1'
  · intro ed
    have t := Host.reduce_andi_all _ _ _ _ ix0 e35 (ix1 ed)
    have t1 : IntOp.andi _ _ = 1#1 := t
    obtain ⟨g0, g1⟩ := IntOp.andi_eq_one.1 t1
    have g0' : IntOp.cmpi .sge (a2 (ix1 ed)) (0#32) = 1#1 := g0
    have g1' : IntOp.cmpi .slt (a2 (ix1 ed)) (BitVec.ofNat 32 8) = 1#1 := g1
    exact word_lt _ 8 (by norm_num) g0' g1'

end Cert.Rgcn.PreDecode

end
-- ==== Proof.Algebra.lean ====
/-
  The fused form equals the relation-by-relation form.

  Column c = 64·r + f of the 512 side-by-side columns belongs to relation r and feature f.  The product of a row of
  reciprocal counts with the 0/1 spreading matrix picks, in column c, the reciprocal count of relation c / 64; dividing
  by a non-zero y is multiplying by 1/y; the sum over the 512 columns is the double sum over relations and features;
  and the sum of the eight relation terms may be added in any order (addition of extended reals is commutative and
  associative, and nothing here needs a finite value).
-/
import proofs.«420744_j1262720385450_3_alg».proof.Proof.Spec

noncomputable section

open scoped BigOperators

namespace Cert.Rgcn

open Idealize.ShloMosaic Idealize.ShloMosaic.ValueIdx

/-- Column 64·r + f of the side-by-side layout. -/
def cat (r : Fin 8) (f : Fin 64) : Fin 512 := ⟨64 * r.val + f.val, by omega⟩

/-- Relations × features are the 512 columns. -/
def catEquiv : Fin 8 × Fin 64 ≃ Fin 512 where
  toFun p := cat p.1 p.2
  invFun c := (⟨c.val / 64, by omega⟩, ⟨c.val % 64, by omega⟩)
  left_inv p := by
    obtain ⟨r, f⟩ := p
    apply Prod.ext <;> apply Fin.ext <;> simp only [cat] <;> omega
  right_inv c := by
    apply Fin.ext; simp only [cat]; omega

/-- The float one is the real one. -/
theorem one32_eq : one32 = 1 := by
  unfold one32
  simp [Ideal.ofBits, Ideal.ieee]
  rw [← EReal.coe_mul, ← EReal.coe_one]
  congr 1
  norm_num

/-- A clipped count is not zero. -/
theorem clip_ne_zero (c : EReal) : max one32 c ≠ 0 := by
  rw [one32_eq]
  intro h
  have : (1 : EReal) ≤ max 1 c := le_max_left _ _
  rw [h] at this
  exact absurd this (by norm_num)

/-- Dividing by a non-zero y is multiplying by the quotient of one by y. -/
theorem div_eq_mul_recip (s y : EReal) (hy : y ≠ 0) : Ideal.div s y = s * Ideal.div one32 y := by
  rw [one32_eq]
  unfold Ideal.div
  rw [if_neg hy, if_neg hy, one_mul]

/-- The row of reciprocal counts times the 0/1 spreading matrix, at column 64·r + f, is relation r's entry. -/
theorem spread_pick (a : Fin 8 → EReal) (OH : S8x512'.Idx → EReal)
    (hOH : ∀ (r : Fin 8) (c : Fin 512), OH (ix2 r c) = if c.val / 64 = r.val then 1 else 0) (r : Fin 8) (f : Fin 64) :
    ∑ r' : Fin 8, a r' * OH (ix2 r' (cat r f)) = a r := by
  rw [Finset.sum_eq_single r]
  · rw [hOH, if_pos (by simp only [cat]; omega), mul_one]
  · intro r' _ hne
    rw [hOH, if_neg (by simp only [cat]; intro h; apply hne; apply Fin.ext; omega), mul_zero]
  · intro h; exact absurd (Finset.mem_univ r) h

theorem fused_eq_rel (S : Fin 8 → SN64.Idx → EReal) (C : Fin 8 → SN.Idx → EReal) (X : SN64.Idx → EReal)
    (W : S8x64x64'.Idx → EReal) (RT : S64x64'.Idx → EReal) (B : S64'.Idx → EReal)
    (SC : SN512.Idx → EReal) (INV : SN8.Idx → EReal) (OH : S8x512'.Idx → EReal) (WC : S512x64'.Idx → EReal)
    (B2 : S1x64'.Idx → EReal)
    (hSC : ∀ (n : Fin 100000) (r : Fin 8) (f : Fin 64), SC (ix2 n (cat r f)) = S r (ix2 n f))
    (hINV : ∀ (n : Fin 100000) (r : Fin 8), INV (ix2 n r) = Ideal.div one32 (max one32 (C r (ix1 n))))
    (hOH : ∀ (r : Fin 8) (c : Fin 512), OH (ix2 r c) = if c.val / 64 = r.val then 1 else 0)
    (hWC : ∀ (r : Fin 8) (f : Fin 64) (o : Fin 64), WC (ix2 (cat r f) o) = W (ix3 r f o))
    (hB2 : ∀ o : Fin 64, B2 (ix2 (0 : Fin 1) o) = B (ix1 o)) :
    fusedOut X SC INV OH RT WC B2 = relOut S C X W RT B := by
  funext i
  obtain ⟨n, o, rfl⟩ : ∃ (n : Fin 100000) (o : Fin 64), i = ix2 n o := ⟨i 0, i 1, eq_ix2 i⟩
  unfold fusedOut relOut
  have hcols : (∑ c : Fin 512, (SC (ix2 n c) * ∑ r : Fin 8, INV (ix2 n r) * OH (ix2 r c)) * WC (ix2 c o))
      = ∑ r : Fin 8, relTerm S C W (ix2 n o) r := by
    rw [← Equiv.sum_comp catEquiv, Fintype.sum_prod_type]
    refine Finset.sum_congr rfl fun r _ => ?_
    unfold relTerm
    refine Finset.sum_congr rfl fun f _ => ?_
    show (SC (ix2 n (cat r f)) * ∑ r' : Fin 8, INV (ix2 n r') * OH (ix2 r' (cat r f))) * WC (ix2 (cat r f) o) = _
    rw [spread_pick (fun r' => INV (ix2 n r')) OH hOH r f, hSC, hINV, hWC]
    exact congrArg (· * W (ix3 r f o)) (div_eq_mul_recip (S r (ix2 n f)) _ (clip_ne_zero _)).symm
  show ((∑ k : Fin 64, X (ix2 n k) * RT (ix2 k o)) + _) + B2 (ix2 (0 : Fin 1) o) = _
  rw [hcols, hB2, Fin.sum_univ_eight]
  show _ = ((((((((((∑ k : Fin 64, X (ix2 n k) * RT (ix2 k o)) + B (ix1 o)) + _) + _) + _) + _) + _) + _) + _) + _)
  abel

end Cert.Rgcn

end
-- ==== Proof.Scatter.lean ====
/-
  Adding edges into bins.

  A scatter-add with one scalar start index per edge adds edge e's update into the bin its index names (read as a
  signed word, dropped when it is outside the bins).  Read at a bin, it is the bin's old content plus the sum over
  all edges of the update where the edge's index is that bin.  Two ways of binning then agree: with a destination
  node in [0, 100000) and a relation in [0, 8), the combined word 8·dst + rel names bin 8·n + r exactly when dst = n and
  rel = r, so scattering all edges over the 800000 combined bins and reading bin 8·n + r is scattering, over the
  100000 nodes, the updates multiplied by the 0/1 indicator of relation r, and reading node n.
-/
import Idealize.ShloMosaic.PureOps.Ideal
import Idealize.ShloMosaic.Lib.ValueIdx

noncomputable section

open scoped BigOperators

namespace Cert.Rgcn.Scatter

open Idealize.ShloMosaic Idealize.ShloMosaic.ValueIdx

abbrev SE1 : Shape := ⟨2, ![3200000, 1]⟩
abbrev SE64 : Shape := ⟨2, ![3200000, 64]⟩
abbrev SE : Shape := ⟨1, ![3200000]⟩

variable {M : Nat}

/-! ## Rows of 64 features scattered into M rows -/

section rows

theorem rows_start0 (uwf) (j : SE64.Idx) (idx : IVec SE1 32) :
    (⟨[1], [0], [0], 1, uwf⟩ : ScatterDims ⟨2, ![M, 64]⟩ SE1 SE64).start j idx 0 = (idx (ix2 (j 0) (0 : Fin 1))).toInt := by
  unfold ScatterDims.start
  rw [dif_pos (show (0 : Fin 2) ∈ ([0] : List (Fin 2)) by decide)]
  congr 2
  funext b
  match b with
  | ⟨0, _⟩ => rfl
  | ⟨1, _⟩ => rfl

theorem rows_start1 (uwf) (j : SE64.Idx) (idx : IVec SE1 32) :
    (⟨[1], [0], [0], 1, uwf⟩ : ScatterDims ⟨2, ![M, 64]⟩ SE1 SE64).start j idx 1 = 0 := by
  unfold ScatterDims.start
  rw [dif_neg (show ¬ (1 : Fin 2) ∈ ([0] : List (Fin 2)) by decide)]

theorem rows_window0 (uwf) (j : SE64.Idx) :
    (⟨[1], [0], [0], 1, uwf⟩ : ScatterDims ⟨2, ![M, 64]⟩ SE1 SE64).window j 0 = 0 := by
  unfold ScatterDims.window
  rw [dif_neg (show ¬ (0 : Fin 2) ∈ Shape.kept (⟨2, ![M, 64]⟩ : Shape) ([0] : List (Fin 2)) by simp [Shape.kept, List.finRange])]

theorem rows_window1 (uwf) (j : SE64.Idx) :
    (⟨[1], [0], [0], 1, uwf⟩ : ScatterDims ⟨2, ![M, 64]⟩ SE1 SE64).window j 1 = (j 1).val := by
  unfold ScatterDims.window
  rw [dif_pos (show (1 : Fin 2) ∈ Shape.kept (⟨2, ![M, 64]⟩ : Shape) ([0] : List (Fin 2)) by simp [Shape.kept, List.finRange])]
  rfl

/-- Edge-feature (e, f') lands on row b, feature f exactly when edge e's index word is b and f' = f. -/
theorem rows_lands (d : ScatterDims ⟨2, ![M, 64]⟩ SE1 SE64) (h1 : d.updateWindowDims = [1]) (h2 : d.insertedWindowDims = [0])
    (h3 : d.scatterDimsToOperandDims = [0]) (h4 : d.indexVectorDim = 1) (idx : IVec SE1 32)
    (e : Fin 3200000) (f' : Fin 64) (b : Fin M) (f : Fin 64) :
    d.resultIdx? (ix2 e f') idx = some (ix2 b f) ↔ (idx (ix2 e (0 : Fin 1))).toInt = (b.val : Int) ∧ f' = f := by
  obtain ⟨uw, iw, sd, iv, wf⟩ := d
  simp only at h1 h2 h3 h4
  subst h1 h2 h3 h4
  have s0 := rows_start0 (M := M) wf (ix2 e f') idx
  have s1 := rows_start1 (M := M) wf (ix2 e f') idx
  have w0 := rows_window0 (M := M) wf (ix2 e f')
  have w1 := rows_window1 (M := M) wf (ix2 e f')
  have hs0 : (ix2 e f' : SE64.Idx) 0 = e := rfl
  have hs1 : ((ix2 e f' : SE64.Idx) 1).val = f'.val := rfl
  rw [hs0] at s0
  rw [hs1] at w1
  unfold ScatterDims.resultIdx?
  split
  · rename_i h
    constructor
    · intro he
      have he' := Option.some.inj he
      have e0 := congrArg (fun i => (i 0).val) he'
      have e1 := congrArg (fun i => (i 1).val) he'
      simp only at e0 e1
      have hb0 : ((ix2 b f : (⟨2, ![M, 64]⟩ : Shape).Idx) 0).val = b.val := rfl
      have hb1 : ((ix2 b f : (⟨2, ![M, 64]⟩ : Shape).Idx) 1).val = f.val := rfl
      rw [hb0] at e0
      rw [hb1] at e1
      have h0 := (h 0).1
      rw [s0, w0] at e0 h0
      rw [s1, w1] at e1
      refine ⟨by omega, Fin.ext (by omega)⟩
    · rintro ⟨e0, e1⟩
      congr 1
      funext a
      apply Fin.ext
      match a with
      | ⟨0, _⟩ =>
        show ((⟨[1], [0], [0], 1, wf⟩ : ScatterDims ⟨2, ![M, 64]⟩ SE1 SE64).start (ix2 e f') idx 0
          + ((⟨[1], [0], [0], 1, wf⟩ : ScatterDims ⟨2, ![M, 64]⟩ SE1 SE64).window (ix2 e f') 0 : Nat)).toNat = b.val
        rw [s0, w0, e0]; omega
      | ⟨1, _⟩ =>
        show ((⟨[1], [0], [0], 1, wf⟩ : ScatterDims ⟨2, ![M, 64]⟩ SE1 SE64).start (ix2 e f') idx 1
          + ((⟨[1], [0], [0], 1, wf⟩ : ScatterDims ⟨2, ![M, 64]⟩ SE1 SE64).window (ix2 e f') 1 : Nat)).toNat = f.val
        rw [s1, w1, e1]; omega
  · rename_i h
    constructor
    · intro he; exact absurd he (by simp)
    · rintro ⟨e0, e1⟩
      exfalso
      apply h
      intro a
      match a with
      | ⟨0, _⟩ =>
        show 0 ≤ (⟨[1], [0], [0], 1, wf⟩ : ScatterDims ⟨2, ![M, 64]⟩ SE1 SE64).start (ix2 e f') idx 0
            + ((⟨[1], [0], [0], 1, wf⟩ : ScatterDims ⟨2, ![M, 64]⟩ SE1 SE64).window (ix2 e f') 0 : Nat)
          ∧ (⟨[1], [0], [0], 1, wf⟩ : ScatterDims ⟨2, ![M, 64]⟩ SE1 SE64).start (ix2 e f') idx 0
            + ((⟨[1], [0], [0], 1, wf⟩ : ScatterDims ⟨2, ![M, 64]⟩ SE1 SE64).window (ix2 e f') 0 : Nat) < (M : Int)
        rw [s0, w0, e0]
        have := b.isLt
        omega
      | ⟨1, _⟩ =>
        show 0 ≤ (⟨[1], [0], [0], 1, wf⟩ : ScatterDims ⟨2, ![M, 64]⟩ SE1 SE64).start (ix2 e f') idx 1
            + ((⟨[1], [0], [0], 1, wf⟩ : ScatterDims ⟨2, ![M, 64]⟩ SE1 SE64).window (ix2 e f') 1 : Nat)
          ∧ (⟨[1], [0], [0], 1, wf⟩ : ScatterDims ⟨2, ![M, 64]⟩ SE1 SE64).start (ix2 e f') idx 1
            + ((⟨[1], [0], [0], 1, wf⟩ : ScatterDims ⟨2, ![M, 64]⟩ SE1 SE64).window (ix2 e f') 1 : Nat) < ((64 : Nat) : Int)
        rw [s1, w1]
        have := f'.isLt
        omega

/-- A row scatter-add read at row b, feature f: the old entry plus, over all edges whose index word is b, the
    edge's update at feature f. -/
theorem rows_apply (d : ScatterDims ⟨2, ![M, 64]⟩ SE1 SE64) (h1 : d.updateWindowDims = [1]) (h2 : d.insertedWindowDims = [0])
    (h3 : d.scatterDimsToOperandDims = [0]) (h4 : d.indexVectorDim = 1) (x : (⟨2, ![M, 64]⟩ : Shape).Idx → EReal)
    (idx : IVec SE1 32) (upd : SE64.Idx → EReal) (b : Fin M) (f : Fin 64) :
    Ideal.hostScatterAdd d x idx upd (ix2 b f)
      = x (ix2 b f) + ∑ e : Fin 3200000, if (idx (ix2 e (0 : Fin 1))).toInt = (b.val : Int) then upd (ix2 e f) else 0 := by
  unfold Ideal.hostScatterAdd
  refine congrArg (x (ix2 b f) + ·) ?_
  rw [Finset.sum_filter, sum_idx2]
  refine Finset.sum_congr rfl fun e _ => ?_
  simp only [rows_lands d h1 h2 h3 h4 idx e _ b f]
  by_cases hb : (idx (ix2 e (0 : Fin 1))).toInt = (b.val : Int)
  · simp only [hb, true_and, if_true]
    rw [Finset.sum_ite_eq' Finset.univ f (fun f' => upd (ix2 e f'))]
    simp
  · simp only [hb, false_and, if_false]
    exact Finset.sum_const_zero

end rows

/-! ## One number per edge scattered into M bins -/

section bins

/-- A rank-1 index is its coordinate. -/
def idxEquiv1 {n : Nat} : (⟨1, ![n]⟩ : Shape).Idx ≃ Fin n where
  toFun i := i 0
  invFun a := ix1 a
  left_inv i := (eq_ix1 i).symm
  right_inv _ := rfl

theorem bins_start0 (uwf) (j : SE.Idx) (idx : IVec SE1 32) :
    (⟨[], [0], [0], 1, uwf⟩ : ScatterDims ⟨1, ![M]⟩ SE1 SE).start j idx 0 = (idx (ix2 (j 0) (0 : Fin 1))).toInt := by
  unfold ScatterDims.start
  rw [dif_pos (show (0 : Fin 1) ∈ ([0] : List (Fin 1)) by decide)]
  congr 2
  funext b
  match b with
  | ⟨0, _⟩ => rfl
  | ⟨1, _⟩ => rfl

theorem bins_window0 (uwf) (j : SE.Idx) :
    (⟨[], [0], [0], 1, uwf⟩ : ScatterDims ⟨1, ![M]⟩ SE1 SE).window j 0 = 0 := by
  unfold ScatterDims.window
  rw [dif_neg (show ¬ (0 : Fin 1) ∈ Shape.kept (⟨1, ![M]⟩ : Shape) ([0] : List (Fin 1)) by simp [Shape.kept, List.finRange])]

/-- Edge e lands on bin b exactly when its index word is b. -/
theorem bins_lands (d : ScatterDims ⟨1, ![M]⟩ SE1 SE) (h1 : d.updateWindowDims = []) (h2 : d.insertedWindowDims = [0])
    (h3 : d.scatterDimsToOperandDims = [0]) (h4 : d.indexVectorDim = 1) (idx : IVec SE1 32)
    (e : Fin 3200000) (b : Fin M) :
    d.resultIdx? (ix1 e) idx = some (ix1 b) ↔ (idx (ix2 e (0 : Fin 1))).toInt = (b.val : Int) := by
  obtain ⟨uw, iw, sd, iv, wf⟩ := d
  simp only at h1 h2 h3 h4
  subst h1 h2 h3 h4
  have s0 := bins_start0 (M := M) wf (ix1 e) idx
  have w0 := bins_window0 (M := M) wf (ix1 e)
  have hs0 : (ix1 e : SE.Idx) 0 = e := rfl
  rw [hs0] at s0
  unfold ScatterDims.resultIdx?
  split
  · rename_i h
    constructor
    · intro he
      have he' := Option.some.inj he
      have e0 := congrArg (fun i => (i 0).val) he'
      simp only at e0
      have hb0 : ((ix1 b : (⟨1, ![M]⟩ : Shape).Idx) 0).val = b.val := rfl
      rw [hb0] at e0
      have h0 := (h 0).1
      rw [s0, w0] at e0 h0
      omega
    · intro e0
      congr 1
      funext a
      apply Fin.ext
      match a with
      | ⟨0, _⟩ =>
        show ((⟨[], [0], [0], 1, wf⟩ : ScatterDims ⟨1, ![M]⟩ SE1 SE).start (ix1 e) idx 0
          + ((⟨[], [0], [0], 1, wf⟩ : ScatterDims ⟨1, ![M]⟩ SE1 SE).window (ix1 e) 0 : Nat)).toNat = b.val
        rw [s0, w0, e0]; omega
  · rename_i h
    constructor
    · intro he; exact absurd he (by simp)
    · intro e0
      exfalso
      apply h
      intro a
      match a with
      | ⟨0, _⟩ =>
        show 0 ≤ (⟨[], [0], [0], 1, wf⟩ : ScatterDims ⟨1, ![M]⟩ SE1 SE).start (ix1 e) idx 0
            + ((⟨[], [0], [0], 1, wf⟩ : ScatterDims ⟨1, ![M]⟩ SE1 SE).window (ix1 e) 0 : Nat)
          ∧ (⟨[], [0], [0], 1, wf⟩ : ScatterDims ⟨1, ![M]⟩ SE1 SE).start (ix1 e) idx 0
            + ((⟨[], [0], [0], 1, wf⟩ : ScatterDims ⟨1, ![M]⟩ SE1 SE).window (ix1 e) 0 : Nat) < (M : Int)
        rw [s0, w0, e0]
        have := b.isLt
        omega

/-- A per-edge scatter-add read at bin b: the old entry plus, over all edges whose index word is b, the edge's
    update. -/
theorem bins_apply (d : ScatterDims ⟨1, ![M]⟩ SE1 SE) (h1 : d.updateWindowDims = []) (h2 : d.insertedWindowDims = [0])
    (h3 : d.scatterDimsToOperandDims = [0]) (h4 : d.indexVectorDim = 1) (x : (⟨1, ![M]⟩ : Shape).Idx → EReal)
    (idx : IVec SE1 32) (upd : SE.Idx → EReal) (b : Fin M) :
    Ideal.hostScatterAdd d x idx upd (ix1 b)
      = x (ix1 b) + ∑ e : Fin 3200000, if (idx (ix2 e (0 : Fin 1))).toInt = (b.val : Int) then upd (ix1 e) else 0 := by
  unfold Ideal.hostScatterAdd
  refine congrArg (x (ix1 b) + ·) ?_
  rw [Finset.sum_filter, ← Equiv.sum_comp (idxEquiv1 (n := 3200000)).symm]
  refine Finset.sum_congr rfl fun e _ => ?_
  show (if d.resultIdx? (ix1 e) idx = some (ix1 b) then upd (ix1 e) else 0) = _
  simp only [bins_lands d h1 h2 h3 h4 idx e b]

end bins

/-! ## The combined bin word -/

/-- For a destination word below 100000 and a relation word below 8, eight times the one plus the other, read
    signed, is 8·dst + rel: nothing wraps. -/
theorem combined_toInt (dw rw : BitVec 32) (hd : dw.toNat < 100000) (hr : rw.toNat < 8) :
    (dw * 8#32 + rw).toInt = ((8 * dw.toNat + rw.toNat : Nat) : Int) := by
  have h1 : (dw * 8#32 + rw).toNat = 8 * dw.toNat + rw.toNat := by
    rw [BitVec.toNat_add, BitVec.toNat_mul]
    simp only [BitVec.toNat_ofNat]
    omega
  rw [BitVec.toInt_eq_toNat_of_lt (by rw [h1]; omega), h1]

/-- A small word read signed is its unsigned value. -/
theorem small_toInt (w : BitVec 32) (n : Nat) (hn : n ≤ 2 ^ 30) (hw : w.toNat < n) : w.toInt = (w.toNat : Int) :=
  BitVec.toInt_eq_toNat_of_lt (by omega)

/-- Edge by edge: adding the update into combined bin 8·n + r is adding the update times the indicator of
    relation r into node n. -/
theorem term_eq (dw rw : BitVec 32) (hd : dw.toNat < 100000) (hr : rw.toNat < 8) (n : Fin 100000) (r : Fin 8)
    (u : EReal) :
    (if (dw * 8#32 + rw).toInt = ((8 * n.val + r.val : Nat) : Int) then u else 0)
      = if dw.toInt = (n.val : Int) then u * (((IntOp.cmpi .eq rw (BitVec.ofNat 32 r.val)).toNat : ℝ) : EReal) else 0 := by
  rw [combined_toInt dw rw hd hr, small_toInt dw 100000 (by norm_num) hd]
  have hrr : (IntOp.cmpi .eq rw (BitVec.ofNat 32 r.val)) = if rw.toNat = r.val then 1#1 else 0#1 := by
    unfold IntOp.cmpi
    by_cases h : rw.toNat = r.val
    · rw [if_pos h]
      have : rw = BitVec.ofNat 32 r.val := by
        apply BitVec.eq_of_toNat_eq; rw [h, BitVec.toNat_ofNat]; have := r.isLt; omega
      simp [this]
    · rw [if_neg h]
      have : ¬ rw = BitVec.ofNat 32 r.val := by
        intro hc; apply h; rw [hc, BitVec.toNat_ofNat]; have := r.isLt; omega
      have hb : (rw == BitVec.ofNat 32 r.val) = false := by simpa using this
      rw [hb]; rfl
  rw [hrr]
  by_cases hn : dw.toNat = n.val
  · by_cases hq : rw.toNat = r.val
    · rw [if_pos (by omega), if_pos (by omega), if_pos hq]; simp
    · rw [if_neg (by omega), if_pos (by omega), if_neg hq]; simp
  · rw [if_neg (by omega), if_neg (by omega)]

end Cert.Rgcn.Scatter

end
-- ==== Proof.KernelWords.lean ====
/-
  The destination word and the combined bin word 8·dst + rel of an edge, read off the host's arrays.
-/
import proofs.«420744_j1262720385450_3_alg».proof.Proof.KernelHost
import proofs.«420744_j1262720385450_3_alg».proof.Proof.Scatter
import proofs.«420744_j1262720385450_3_alg».proof.Proof.Algebra
import Idealize.ShloMosaic.Lib.Pipeline.Value

noncomputable section

open scoped BigOperators

namespace Cert.Rgcn.KernelBins

open Cert.KernelIdeal Cert.KernelIdeal.Gen Cert.Rgcn.KernelHost Idealize.ShloMosaic Idealize.ShloMosaic.ValueIdx Cert.Rgcn

/-- The destination of edge e. -/
theorem dstK_apply (x1 : IVec S2x3200000 32) (e : Fin 3200000) : dstK x1 (ix1 e) = x1 (ix2 (1 : Fin 2) e) := by
  unfold dstK
  generalize hy : extractStridedSlice S1x3200000 ![1, 0] x1 slices_S2x3200000_S1x3200000_1_0 = y
  rw [shapeCast_apply y shapeCasts_S1x3200000_S3200000 (ix1 e) (ix2 (0 : Fin 1) e)
    (by rewrite [Shape.rowMajor_val_two, Shape.rowMajor_val_one]; have h0 := e.isLt; show 0 * 3200000 + e.val = e.val; omega)]
  rw [← hy]
  exact extractStridedSlice_apply ![1, 0] x1 slices_S2x3200000_S1x3200000_1_0 (ix2 (0 : Fin 1) e) (ix2 (1 : Fin 2) e)
    (fun a => match a with
      | ⟨0, _⟩ => by show 1 = 1 + 0; omega
      | ⟨1, _⟩ => by show e.val = 0 + e.val; omega)

/-- The combined bin word of edge e. -/
theorem binColK_apply (x1 : IVec S2x3200000 32) (x2 : IVec S3200000 32) (e : Fin 3200000) :
    binColK x1 x2 (ix2 e (0 : Fin 1)) = x1 (ix2 (1 : Fin 2) e) * 8#32 + x2 (ix1 e) := by
  unfold binColK
  rw [broadcastInDim_apply _ bcast_S3200000_S3200000x1_0 (binK x1 x2) (ix2 e (0 : Fin 1)) (ix1 e) (fun a => match a with
    | ⟨0, _⟩ => by show e.val = if (3200000 : Nat) = 1 then 0 else e.val; rw [if_neg (by decide)])]
  show IntOp.addi (IntOp.muli (dstK x1 (ix1 e)) (8#32)) (x2 (ix1 e)) = _
  rw [dstK_apply]
  rfl

end Cert.Rgcn.KernelBins

end
-- ==== Proof.KernelSums.lean ====
/-
  Row n of the side-by-side sums holds, in column 64·r + f, the sum over all edges whose combined bin word is 8·n + r of the edge's gathered feature f.
-/
import proofs.«420744_j1262720385450_3_alg».proof.Proof.KernelHost
import proofs.«420744_j1262720385450_3_alg».proof.Proof.KernelWords
import proofs.«420744_j1262720385450_3_alg».proof.Proof.Scatter
import proofs.«420744_j1262720385450_3_alg».proof.Proof.Algebra
import Idealize.ShloMosaic.Lib.Pipeline.Value

noncomputable section

open scoped BigOperators

namespace Cert.Rgcn.KernelBins

open Cert.KernelIdeal Cert.KernelIdeal.Gen Cert.Rgcn.KernelHost Idealize.ShloMosaic Idealize.ShloMosaic.ValueIdx Cert.Rgcn

/-- Over the extended reals the host's accumulating scatter is the exact one. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- A splat of a literal read at any index is the literal. -/
theorem splat_apply {t : Shape} (h : S_.BroadcastsInDim t ![]) (w : BitVec 32) (i : t.Idx) :
    broadcastInDim t ![] h (constant (F := Ideal) S_ .f32 w) i = Ideal.ofBits .f32 w := rfl

/-- The neighbour sum of combined bin b at feature f. -/
theorem sumsK_apply (x0 : FVec Ideal S100000x64 .f32) (x1 : IVec S2x3200000 32) (x2 : IVec S3200000 32)
    (b : Fin 800000) (f : Fin 64) :
    sumsK x0 x1 x2 (ix2 b f)
      = Ideal.ofBits .f32 0x00000000#32 + ∑ e : Fin 3200000,
          if (x1 (ix2 (1 : Fin 2) e) * 8#32 + x2 (ix1 e)).toInt = (b.val : Int) then xsK x0 x1 (ix2 e f) else 0 := by
  unfold sumsK
  generalize xsK x0 x1 = xs
  generalize hcol : binColK x1 x2 = col
  rw [scatterAdd_ideal, Scatter.rows_apply _ rfl rfl rfl rfl, splat_apply]
  refine congrArg (Ideal.ofBits .f32 0x00000000#32 + ·) (Finset.sum_congr rfl fun e _ => ?_)
  rw [← hcol, binColK_apply]

/-- Column 64·r + f of row n of the side-by-side sums is combined bin 8·n + r at feature f. -/
theorem sumsCatK_apply (x0 : FVec Ideal S100000x64 .f32) (x1 : IVec S2x3200000 32) (x2 : IVec S3200000 32)
    (n : Fin 100000) (r : Fin 8) (f : Fin 64) :
    sumsCatK x0 x1 x2 (ix2 n (cat r f))
      = Ideal.ofBits .f32 0x00000000#32 + ∑ e : Fin 3200000,
          if (x1 (ix2 (1 : Fin 2) e) * 8#32 + x2 (ix1 e)).toInt = ((8 * n.val + r.val : Nat) : Int)
          then xsK x0 x1 (ix2 e f) else 0 := by
  unfold sumsCatK
  generalize hy : sumsK x0 x1 x2 = y
  rw [shapeCast_apply y shapeCasts_S800000x64_S100000x512 (ix2 n (cat r f))
    (ix2 (⟨8 * n.val + r.val, by have := n.isLt; have := r.isLt; omega⟩ : Fin 800000) f)
    (by rewrite [Shape.rowMajor_val_two, Shape.rowMajor_val_two]
        show (8 * n.val + r.val) * 64 + f.val = n.val * 512 + (64 * r.val + f.val); omega)]
  rw [← hy, sumsK_apply]

end Cert.Rgcn.KernelBins

end
-- ==== Proof.KernelCounts.lean ====
/-
  Entry (n, r) of the reciprocal counts is one over the clipped number of edges whose combined bin word is 8·n + r.
-/
import proofs.«420744_j1262720385450_3_alg».proof.Proof.KernelHost
import proofs.«420744_j1262720385450_3_alg».proof.Proof.KernelWords
import proofs.«420744_j1262720385450_3_alg».proof.Proof.Scatter
import proofs.«420744_j1262720385450_3_alg».proof.Proof.Algebra
import Idealize.ShloMosaic.Lib.Pipeline.Value

noncomputable section

open scoped BigOperators

namespace Cert.Rgcn.KernelBins

open Cert.KernelIdeal Cert.KernelIdeal.Gen Cert.Rgcn.KernelHost Idealize.ShloMosaic Idealize.ShloMosaic.ValueIdx Cert.Rgcn

/-- Over the extended reals the host's accumulating scatter is the exact one. -/
theorem scatterAdd_ideal' {s si u : Shape} {w : Nat} (d : ScatterDims s si u) (x : FVec Ideal s .f32) (idx : IVec si w)
    (upd : FVec Ideal u .f32) : Host.scatterAdd (F := Ideal) d x idx upd = Ideal.hostScatterAdd d x idx upd := rfl

/-- A splat of a literal read at any index is the literal. -/
theorem splat_apply' {t : Shape} (h : S_.BroadcastsInDim t ![]) (w : BitVec 32) (i : t.Idx) :
    broadcastInDim t ![] h (constant (F := Ideal) S_ .f32 w) i = Ideal.ofBits .f32 w := rfl

/-- The same splat written through an identity. -/
theorem splat_id_apply {t : Shape} (h : S_.BroadcastsInDim t ![]) (w : BitVec 32) (i : t.Idx) :
    broadcastInDim t ![] h (id (constant (F := Ideal) S_ .f32 w)) i = Ideal.ofBits .f32 w := rfl

/-- A quotient of arrays at an index is the quotient of the entries. -/
theorem divf_apply {s : Shape} (a b : FVec Ideal s .f32) (i : s.Idx) :
    Host.divf (F := Ideal) a b i = Ideal.div (a i) (b i) := rfl

/-- A maximum of arrays at an index is the maximum of the entries. -/
theorem maximumf_apply' {s : Shape} (a b : FVec Ideal s .f32) (i : s.Idx) :
    maximumf (F := Ideal) a b i = max (a i) (b i) := rfl

/-- The in-edge count of combined bin b. -/
theorem countsK_apply (x1 : IVec S2x3200000 32) (x2 : IVec S3200000 32) (b : Fin 800000) :
    countsK x1 x2 (ix1 b)
      = Ideal.ofBits .f32 0x00000000#32 + ∑ e : Fin 3200000,
          if (x1 (ix2 (1 : Fin 2) e) * 8#32 + x2 (ix1 e)).toInt = (b.val : Int) then one32 else 0 := by
  unfold countsK
  generalize hcol : binColK x1 x2 = col
  rw [scatterAdd_ideal', Scatter.bins_apply _ rfl rfl rfl rfl, splat_apply']
  refine congrArg (Ideal.ofBits .f32 0x00000000#32 + ·) (Finset.sum_congr rfl fun e _ => ?_)
  rw [← hcol, binColK_apply, splat_apply']
  rfl

/-- Entry (n, r) of the reciprocal counts: one over the clipped count of combined bin 8·n + r. -/
theorem invK_apply (x1 : IVec S2x3200000 32) (x2 : IVec S3200000 32) (n : Fin 100000) (r : Fin 8) :
    invK x1 x2 (ix2 n r)
      = Ideal.div one32 (max one32 (Ideal.ofBits .f32 0x00000000#32 + ∑ e : Fin 3200000,
          if (x1 (ix2 (1 : Fin 2) e) * 8#32 + x2 (ix1 e)).toInt = ((8 * n.val + r.val : Nat) : Int) then one32 else 0)) := by
  unfold invK
  generalize hc : countsK x1 x2 = cnt
  generalize hy : Host.divf (F := Ideal) (broadcastInDim S800000 ![] bcast_S_S800000 (constant (F := Ideal) S_ .f32 0x3F800000#32))
      (maximumf (broadcastInDim S800000 ![] bcast_S_S800000 (id (constant (F := Ideal) S_ .f32 0x3F800000#32))) cnt) = y
  rw [shapeCast_apply y shapeCasts_S800000_S100000x8 (ix2 n r)
    (ix1 (⟨8 * n.val + r.val, by have := n.isLt; have := r.isLt; omega⟩ : Fin 800000))
    (by rewrite [Shape.rowMajor_val_one, Shape.rowMajor_val_two]
        show 8 * n.val + r.val = n.val * 8 + r.val; omega)]
  rw [← hy, divf_apply, maximumf_apply', splat_apply', splat_id_apply, ← hc, countsK_apply]
  rfl

end Cert.Rgcn.KernelBins

end
-- ==== Proof.KernelLayout.lean ====
/-
  Row 64·r + f of the stacked weights is row f of W[r]; the bias row is the bias.
-/
import proofs.«420744_j1262720385450_3_alg».proof.Proof.KernelHost
import proofs.«420744_j1262720385450_3_alg».proof.Proof.Scatter
import proofs.«420744_j1262720385450_3_alg».proof.Proof.Algebra
import Idealize.ShloMosaic.Lib.Pipeline.Value

noncomputable section

open scoped BigOperators

namespace Cert.Rgcn.KernelBins

open Cert.KernelIdeal Cert.KernelIdeal.Gen Cert.Rgcn.KernelHost Idealize.ShloMosaic Idealize.ShloMosaic.ValueIdx Cert.Rgcn

/-- Row 64·r + f of the stacked weights is row f of W[r]. -/
theorem wcatK_apply (x3 : FVec Ideal S8x64x64 .f32) (r : Fin 8) (f : Fin 64) (o : Fin 64) :
    wcatK x3 (ix2 (cat r f) o) = x3 (ix3 r f o) := by
  unfold wcatK
  exact shapeCast_apply x3 shapeCasts_S8x64x64_S512x64 (ix2 (cat r f) o) (ix3 r f o)
    (by rewrite [Shape.rowMajor_val_three, Shape.rowMajor_val_two]
        show (r.val * 64 + f.val) * 64 + o.val = (64 * r.val + f.val) * 64 + o.val; omega)

/-- The bias row is the bias. -/
theorem biasRowK_apply (x5 : FVec Ideal S64 .f32) (o : Fin 64) : biasRowK x5 (ix2 (0 : Fin 1) o) = x5 (ix1 o) := by
  unfold biasRowK
  exact shapeCast_apply x5 shapeCasts_S64_S1x64 (ix2 (0 : Fin 1) o) (ix1 o)
    (by rewrite [Shape.rowMajor_val_one, Shape.rowMajor_val_two]
        show o.val = 0 * 64 + o.val; omega)

end Cert.Rgcn.KernelBins

end
-- ==== Proof.KernelOnehot.lean ====
/-
  The 0/1 spreading matrix read at an entry.

  Entry (r, c) compares relation number r with column number c floor-divided by 64.  For the column numbers
  0 … 511 the host's floor division (the quotient toward zero, lowered by one where the signs differ and the remainder
  is not zero) is c // 64, so the entry is one exactly when c // 64 = r.
-/
import proofs.«420744_j1262720385450_3_alg».proof.Proof.KernelHost
import Idealize.ShloMosaic.Lib.Pipeline.Value

noncomputable section

namespace Cert.Rgcn.KernelBins

open Cert.KernelIdeal Cert.KernelIdeal.Gen Cert.Rgcn.KernelHost Idealize.ShloMosaic Idealize.ShloMosaic.ValueIdx Cert.Rgcn

/-- The sign word of a 32-bit word: 0, −1 or 1. -/
def sgWord (w : BitVec 32) : BitVec 32 := if w = 0 then 0 else if w.msb then -1 else 1

/-- A word floor-divided by 64, as the host computes it. -/
def fdWord (w : BitVec 32) : BitVec 32 :=
  Scalar.select
    (IntOp.andi (IntOp.cmpi .ne (sgWord w) (sgWord 64#32)) (IntOp.cmpi .ne (IntOp.remsi .host w 64#32) 0#32))
    (IntOp.subi (IntOp.divsi .host w 64#32) 1#32) (IntOp.divsi .host w 64#32)

/-- For the 512 column numbers the floor-divided word equals relation r's number exactly when c // 64 = r. -/
theorem onehot_table : ∀ (r : Fin 8) (c : Fin 512),
    IntOp.cmpi .eq (BitVec.ofNat 32 r.val) (fdWord (BitVec.ofNat 32 c.val)) = if c.val / 64 = r.val then 1#1 else 0#1 := by
  decide +kernel

/-- Column c's relation word. -/
theorem colRelK_apply (c : Fin 512) : colRelK (ix2 (0 : Fin 1) c) = fdWord (BitVec.ofNat 32 c.val) := rfl

/-- Entry (r, c) of the 0/1 matrix. -/
theorem onehotK_apply (r : Fin 8) (c : Fin 512) : onehotK (ix2 r c) = if c.val / 64 = r.val then 1 else 0 := by
  have h : onehotK (ix2 r c)
      = (((IntOp.cmpi .eq (BitVec.ofNat 32 r.val) (fdWord (BitVec.ofNat 32 c.val))).toNat : ℝ) : EReal) := by
    unfold onehotK
    show (((IntOp.cmpi .eq _ _).toNat : ℝ) : EReal) = _
    rw [broadcastInDim_apply _ bcast_S1x512_S8x512_0_1 colRelK (ix2 r c) (ix2 (0 : Fin 1) c) (fun a => match a with
      | ⟨0, _⟩ => by show 0 = if (1 : Nat) = 1 then 0 else r.val; rw [if_pos rfl]
      | ⟨1, _⟩ => by show c.val = if (512 : Nat) = 1 then 0 else c.val; rw [if_neg (by decide)]),
      colRelK_apply]
    rfl
  rw [h, onehot_table]
  by_cases hc : c.val / 64 = r.val
  · rw [if_pos hc, if_pos hc]; simp
  · rw [if_neg hc, if_neg hc]; simp

end Cert.Rgcn.KernelBins

end
-- ==== Proof.RefRead.lean ====
/-
  The reference's result read at an index.

  The reference adds, to the root term and the bias, one term per relation: the per-relation neighbour sums divided
  by the clipped per-relation counts, times that relation's weight matrix.  Read index by index, with the sixteen
  scatter-adds (eight sums, eight counts) kept as named arrays, its result is the relation-by-relation form.
-/
import proofs.«420744_j1262720385450_3_alg».proof.Proof.Spec
import proofs.«420744_j1262720385450_3_alg».proof.Proof.Gen.ReferenceIdeal.Read

noncomputable section

namespace Cert.Rgcn.RefRead

open Cert.ReferenceIdeal Cert.ReferenceIdeal.Read Idealize.ShloMosaic Idealize.ShloMosaic.ValueIdx Cert.Rgcn

/-- The eight per-relation neighbour-sum arrays, as the reference's scatter-adds write them. -/
def relSums (x0 : FVec Ideal S100000x64 .f32) (x1 : IVec S2x3200000 32) (x2 : IVec S3200000 32) : Fin 8 → SN64.Idx → EReal
  | 0 => val_main_v23 (F := Ideal) x0 x1 x2
  | 1 => val_main_v43 (F := Ideal) x0 x1 x2
  | 2 => val_main_v63 (F := Ideal) x0 x1 x2
  | 3 => val_main_v83 (F := Ideal) x0 x1 x2
  | 4 => val_main_v103 (F := Ideal) x0 x1 x2
  | 5 => val_main_v123 (F := Ideal) x0 x1 x2
  | 6 => val_main_v143 (F := Ideal) x0 x1 x2
  | 7 => val_main_v163 (F := Ideal) x0 x1 x2

/-- The eight per-relation in-edge counts, as the reference's scatter-adds write them. -/
def relCounts (x1 : IVec S2x3200000 32) (x2 : IVec S3200000 32) : Fin 8 → SN.Idx → EReal
  | 0 => val_main_v26 (F := Ideal) x1 x2
  | 1 => val_main_v46 (F := Ideal) x1 x2
  | 2 => val_main_v66 (F := Ideal) x1 x2
  | 3 => val_main_v86 (F := Ideal) x1 x2
  | 4 => val_main_v106 (F := Ideal) x1 x2
  | 5 => val_main_v126 (F := Ideal) x1 x2
  | 6 => val_main_v146 (F := Ideal) x1 x2
  | 7 => val_main_v166 (F := Ideal) x1 x2

/-- One summand of a relation's term: the neighbour sum over the count clipped below at one, times the weight entry.
    The three indices are given by their coordinates: row `a` and feature `k` of the sums, row `a` of the counts, and
    entry `(r, k, j)` of the weights, the last two coordinates as the flattening of a 64×64 matrix leaves them. -/
theorem quotient_times_weight (S : SN64.Idx → EReal) (C : SN.Idx → EReal) (W : S8x64x64'.Idx → EReal)
    (a : Fin 100000) (k j : Fin 64) (r : Fin 8) (p : SN64.Idx) (q : SN.Idx) (w : S8x64x64'.Idx)
    (hp0 : (p 0).val = a.val) (hp1 : (p 1).val = k.val) (hq0 : (q 0).val = a.val)
    (hw0 : (w 0).val = r.val) (hw1 : (w 1).val = (k.val * 64 + j.val) / 64 % 64)
    (hw2 : (w 2).val = (k.val * 64 + j.val) % 64) :
    FloatOps.hostDivf (F := Ideal) (φ := .f32) (S p)
        (FloatOps.maximumf (F := Ideal) (φ := .f32) (FloatOps.ofBits (F := Ideal) .f32 0x3F800000#32) (C q)) * W w
      = Ideal.div (S (ix2 a k)) (max one32 (C (ix1 a))) * W (ix3 r k j) := by
  have hk : k.val < 64 := k.isLt
  have hj : j.val < 64 := j.isLt
  have hp : p = ix2 a k := funext fun d => Fin.ext (by
    match d with
    | ⟨0, _⟩ => exact hp0
    | ⟨1, _⟩ => exact hp1)
  have hq : q = ix1 a := funext fun d => Fin.ext (by
    match d with
    | ⟨0, _⟩ => exact hq0)
  have hw : w = ix3 r k j := funext fun d => Fin.ext (by
    match d with
    | ⟨0, _⟩ => exact hw0
    | ⟨1, _⟩ => exact hw1.trans (show (k.val * 64 + j.val) / 64 % 64 = k.val by omega)
    | ⟨2, _⟩ => exact hw2.trans (show (k.val * 64 + j.val) % 64 = j.val by omega))
  subst hp hq hw
  rfl

/-- The first stages: the product of the node features with the root weight, plus the bias spread over the rows. -/
theorem root_plus_bias (x0 : FVec Ideal S100000x64 .f32) (x4 : FVec Ideal S64x64 .f32) (x5 : FVec Ideal S64 .f32)
    (a : Fin 100000) (j : Fin 64) :
    val_main_v14 (F := Ideal) x0 x4 x5 (ix2 a j)
      = (∑ k : Fin 64, x0 (ix2 a k) * x4 (ix2 k j)) + x5 (ix1 j) := by
  rw [val_main_v14_apply, val_main_v11_apply, val_main_v13_apply, val_main_v12_apply]
  have hl : ∀ k : Fin 64, lidx_main_v11 (ix2 a j) k = ix2 a k := fun k => funext fun d => Fin.ext (by
    match d with
    | ⟨0, _⟩ => rfl
    | ⟨1, _⟩ => rfl)
  have hr : ∀ k : Fin 64, ridx_main_v11 (ix2 a j) k = ix2 k j := fun k => funext fun d => Fin.ext (by
    match d with
    | ⟨0, _⟩ => rfl
    | ⟨1, _⟩ => rfl)
  have hb : idx_main_v12 (idx_main_v13 (ix2 a j)) = ix1 j := funext fun d => Fin.ext (by
    match d with
    | ⟨0, _⟩ => rfl)
  simp only [hl, hr, hb]
  rfl

/-- Relation 0: the product of its quotient rows with its slice of the weights is its term of the relation-by-relation form. -/
theorem relation0_term (x0 : FVec Ideal S100000x64 .f32) (x1 : IVec S2x3200000 32) (x2 : IVec S3200000 32)
    (x3 : FVec Ideal S8x64x64 .f32) (a : Fin 100000) (j : Fin 64) :
    val_main_v33 (F := Ideal) x0 x1 x2 x3 (ix2 a j)
      = relTerm (relSums x0 x1 x2) (relCounts x1 x2) x3 (ix2 a j) 0 := by
  rw [val_main_v33_apply]
  unfold relTerm
  refine Finset.sum_congr rfl fun k _ => ?_
  rw [val_main_v30_apply, val_main_v29_apply, val_main_v28_apply, val_main_v27_apply, val_main_call0_v1_apply,
    val_main_call0_v0_apply, val_main_cst_3_apply, val_main_v32_apply, val_main_v31_apply,
    show relSums x0 x1 x2 0 = val_main_v23 (F := Ideal) x0 x1 x2 from rfl,
    show relCounts x1 x2 0 = val_main_v26 (F := Ideal) x1 x2 from rfl]
  exact quotient_times_weight _ _ x3 a k j 0 _ _ _ rfl rfl rfl rfl rfl rfl

/-- Relation 1: the product of its quotient rows with its slice of the weights is its term of the relation-by-relation form. -/
theorem relation1_term (x0 : FVec Ideal S100000x64 .f32) (x1 : IVec S2x3200000 32) (x2 : IVec S3200000 32)
    (x3 : FVec Ideal S8x64x64 .f32) (a : Fin 100000) (j : Fin 64) :
    val_main_v53 (F := Ideal) x0 x1 x2 x3 (ix2 a j)
      = relTerm (relSums x0 x1 x2) (relCounts x1 x2) x3 (ix2 a j) 1 := by
  rw [val_main_v53_apply]
  unfold relTerm
  refine Finset.sum_congr rfl fun k _ => ?_
  rw [val_main_v50_apply, val_main_v49_apply, val_main_v48_apply, val_main_v47_apply, val_main_call1_v1_apply,
    val_main_call1_v0_apply, val_main_cst_7_apply, val_main_v52_apply, val_main_v51_apply,
    show relSums x0 x1 x2 1 = val_main_v43 (F := Ideal) x0 x1 x2 from rfl,
    show relCounts x1 x2 1 = val_main_v46 (F := Ideal) x1 x2 from rfl]
  exact quotient_times_weight _ _ x3 a k j 1 _ _ _ rfl rfl rfl rfl rfl rfl

/-- Relation 2: the product of its quotient rows with its slice of the weights is its term of the relation-by-relation form. -/
theorem relation2_term (x0 : FVec Ideal S100000x64 .f32) (x1 : IVec S2x3200000 32) (x2 : IVec S3200000 32)
    (x3 : FVec Ideal S8x64x64 .f32) (a : Fin 100000) (j : Fin 64) :
    val_main_v73 (F := Ideal) x0 x1 x2 x3 (ix2 a j)
      = relTerm (relSums x0 x1 x2) (relCounts x1 x2) x3 (ix2 a j) 2 := by
  rw [val_main_v73_apply]
  unfold relTerm
  refine Finset.sum_congr rfl fun k _ => ?_
  rw [val_main_v70_apply, val_main_v69_apply, val_main_v68_apply, val_main_v67_apply, val_main_call2_v1_apply,
    val_main_call2_v0_apply, val_main_cst_11_apply, val_main_v72_apply, val_main_v71_apply,
    show relSums x0 x1 x2 2 = val_main_v63 (F := Ideal) x0 x1 x2 from rfl,
    show relCounts x1 x2 2 = val_main_v66 (F := Ideal) x1 x2 from rfl]
  exact quotient_times_weight _ _ x3 a k j 2 _ _ _ rfl rfl rfl rfl rfl rfl

/-- Relation 3: the product of its quotient rows with its slice of the weights is its term of the relation-by-relation form. -/
theorem relation3_term (x0 : FVec Ideal S100000x64 .f32) (x1 : IVec S2x3200000 32) (x2 : IVec S3200000 32)
    (x3 : FVec Ideal S8x64x64 .f32) (a : Fin 100000) (j : Fin 64) :
    val_main_v93 (F := Ideal) x0 x1 x2 x3 (ix2 a j)
      = relTerm (relSums x0 x1 x2) (relCounts x1 x2) x3 (ix2 a j) 3 := by
  rw [val_main_v93_apply]
  unfold relTerm
  refine Finset.sum_congr rfl fun k _ => ?_
  rw [val_main_v90_apply, val_main_v89_apply, val_main_v88_apply, val_main_v87_apply, val_main_call3_v1_apply,
    val_main_call3_v0_apply, val_main_cst_15_apply, val_main_v92_apply, val_main_v91_apply,
    show relSums x0 x1 x2 3 = val_main_v83 (F := Ideal) x0 x1 x2 from rfl,
    show relCounts x1 x2 3 = val_main_v86 (F := Ideal) x1 x2 from rfl]
  exact quotient_times_weight _ _ x3 a k j 3 _ _ _ rfl rfl rfl rfl rfl rfl

/-- Relation 4: the product of its quotient rows with its slice of the weights is its term of the relation-by-relation form. -/
theorem relation4_term (x0 : FVec Ideal S100000x64 .f32) (x1 : IVec S2x3200000 32) (x2 : IVec S3200000 32)
    (x3 : FVec Ideal S8x64x64 .f32) (a : Fin 100000) (j : Fin 64) :
    val_main_v113 (F := Ideal) x0 x1 x2 x3 (ix2 a j)
      = relTerm (relSums x0 x1 x2) (relCounts x1 x2) x3 (ix2 a j) 4 := by
  rw [val_main_v113_apply]
  unfold relTerm
  refine Finset.sum_congr rfl fun k _ => ?_
  rw [val_main_v110_apply, val_main_v109_apply, val_main_v108_apply, val_main_v107_apply, val_main_call4_v1_apply,
    val_main_call4_v0_apply, val_main_cst_19_apply, val_main_v112_apply, val_main_v111_apply,
    show relSums x0 x1 x2 4 = val_main_v103 (F := Ideal) x0 x1 x2 from rfl,
    show relCounts x1 x2 4 = val_main_v106 (F := Ideal) x1 x2 from rfl]
  exact quotient_times_weight _ _ x3 a k j 4 _ _ _ rfl rfl rfl rfl rfl rfl

/-- Relation 5: the product of its quotient rows with its slice of the weights is its term of the relation-by-relation form. -/
theorem relation5_term (x0 : FVec Ideal S100000x64 .f32) (x1 : IVec S2x3200000 32) (x2 : IVec S3200000 32)
    (x3 : FVec Ideal S8x64x64 .f32) (a : Fin 100000) (j : Fin 64) :
    val_main_v133 (F := Ideal) x0 x1 x2 x3 (ix2 a j)
      = relTerm (relSums x0 x1 x2) (relCounts x1 x2) x3 (ix2 a j) 5 := by
  rw [val_main_v133_apply]
  unfold relTerm
  refine Finset.sum_congr rfl fun k _ => ?_
  rw [val_main_v130_apply, val_main_v129_apply, val_main_v128_apply, val_main_v127_apply, val_main_call5_v1_apply,
    val_main_call5_v0_apply, val_main_cst_23_apply, val_main_v132_apply, val_main_v131_apply,
    show relSums x0 x1 x2 5 = val_main_v123 (F := Ideal) x0 x1 x2 from rfl,
    show relCounts x1 x2 5 = val_main_v126 (F := Ideal) x1 x2 from rfl]
  exact quotient_times_weight _ _ x3 a k j 5 _ _ _ rfl rfl rfl rfl rfl rfl

/-- Relation 6: the product of its quotient rows with its slice of the weights is its term of the relation-by-relation form. -/
theorem relation6_term (x0 : FVec Ideal S100000x64 .f32) (x1 : IVec S2x3200000 32) (x2 : IVec S3200000 32)
    (x3 : FVec Ideal S8x64x64 .f32) (a : Fin 100000) (j : Fin 64) :
    val_main_v153 (F := Ideal) x0 x1 x2 x3 (ix2 a j)
      = relTerm (relSums x0 x1 x2) (relCounts x1 x2) x3 (ix2 a j) 6 := by
  rw [val_main_v153_apply]
  unfold relTerm
  refine Finset.sum_congr rfl fun k _ => ?_
  rw [val_main_v150_apply, val_main_v149_apply, val_main_v148_apply, val_main_v147_apply, val_main_call6_v1_apply,
    val_main_call6_v0_apply, val_main_cst_27_apply, val_main_v152_apply, val_main_v151_apply,
    show relSums x0 x1 x2 6 = val_main_v143 (F := Ideal) x0 x1 x2 from rfl,
    show relCounts x1 x2 6 = val_main_v146 (F := Ideal) x1 x2 from rfl]
  exact quotient_times_weight _ _ x3 a k j 6 _ _ _ rfl rfl rfl rfl rfl rfl

/-- Relation 7: the product of its quotient rows with its slice of the weights is its term of the relation-by-relation form. -/
theorem relation7_term (x0 : FVec Ideal S100000x64 .f32) (x1 : IVec S2x3200000 32) (x2 : IVec S3200000 32)
    (x3 : FVec Ideal S8x64x64 .f32) (a : Fin 100000) (j : Fin 64) :
    val_main_v173 (F := Ideal) x0 x1 x2 x3 (ix2 a j)
      = relTerm (relSums x0 x1 x2) (relCounts x1 x2) x3 (ix2 a j) 7 := by
  rw [val_main_v173_apply]
  unfold relTerm
  refine Finset.sum_congr rfl fun k _ => ?_
  rw [val_main_v170_apply, val_main_v169_apply, val_main_v168_apply, val_main_v167_apply, val_main_call7_v1_apply,
    val_main_call7_v0_apply, val_main_cst_31_apply, val_main_v172_apply, val_main_v171_apply,
    show relSums x0 x1 x2 7 = val_main_v163 (F := Ideal) x0 x1 x2 from rfl,
    show relCounts x1 x2 7 = val_main_v166 (F := Ideal) x1 x2 from rfl]
  exact quotient_times_weight _ _ x3 a k j 7 _ _ _ rfl rfl rfl rfl rfl rfl

/-- The reference's result is the relation-by-relation form of its scatter-add arrays and its arguments. -/
theorem result_eq (x0 : FVec Ideal S100000x64 .f32) (x1 : IVec S2x3200000 32) (x2 : IVec S3200000 32)
    (x3 : FVec Ideal S8x64x64 .f32) (x4 : FVec Ideal S64x64 .f32) (x5 : FVec Ideal S64 .f32) :
    val_main_v174 (F := Ideal) x0 x1 x2 x3 x4 x5 = relOut (relSums x0 x1 x2) (relCounts x1 x2) x0 x3 x4 x5 := by
  funext i
  obtain ⟨a, j, rfl⟩ : ∃ (a : Fin 100000) (j : Fin 64), i = ix2 a j := ⟨i 0, i 1, eq_ix2 i⟩
  rw [val_main_v174_apply, val_main_v154_apply, val_main_v134_apply, val_main_v114_apply, val_main_v94_apply,
    val_main_v74_apply, val_main_v54_apply, val_main_v34_apply,
    relation7_term, relation6_term, relation5_term, relation4_term, relation3_term, relation2_term, relation1_term,
    relation0_term, root_plus_bias]
  rfl

end Cert.Rgcn.RefRead

end
-- ==== Proof.RefBins.lean ====
/-
  The reference's sixteen scatter-adds read at a node.

  For relation r the reference adds, into node dst[e]'s row, edge e's gathered source row times the 0/1 indicator of
  rel[e] = r, and into node dst[e]'s count that indicator.  Read at node n: zero plus the sum over all edges whose
  destination word is n.
-/
import proofs.«420744_j1262720385450_3_alg».proof.Proof.RefRead
import proofs.«420744_j1262720385450_3_alg».proof.Proof.Scatter

noncomputable section

open scoped BigOperators

namespace Cert.Rgcn.RefBins

open Cert.ReferenceIdeal Cert.ReferenceIdeal.Read Idealize.ShloMosaic Idealize.ShloMosaic.ValueIdx Cert.Rgcn

/-- The destination column every scatter-add is handed: edge e's start index is the second row of the edge array
    at e. -/
theorem dst_word (x1 : IVec S2x3200000 32) (e : Fin 3200000) (p : S3200000.Idx) (hp : (p 0).val = e.val) :
    val_main_v3 (F := Ideal) x1 p = x1 (ix2 (1 : Fin 2) e) := by
  rw [val_main_v3_apply, val_main_v2_apply]
  refine congrArg x1 (funext fun d => Fin.ext ?_)
  have he : e.val < 3200000 := e.isLt
  match d with
  | ⟨0, _⟩ => rfl
  | ⟨1, _⟩ => show (p 0).val % 3200000 = e.val; rw [hp]; omega

/-- A scatter-add of rows read at node n, feature f, once its three operands are read: a zero array, the
    destination column, and the gathered source rows times the relation's 0/1 indicator. -/
theorem rows_read (x0 : FVec Ideal S100000x64 .f32) (x1 : IVec S2x3200000 32) (x2 : IVec S3200000 32)
    (r : Fin 8) (n : Fin 100000) (f : Fin 64)
    (zero : FVec Ideal S100000x64 .f32) (col : IVec S3200000x1 32) (upd : FVec Ideal S3200000x64 .f32)
    (hzero : zero (ix2 n f) = Ideal.ofBits .f32 0x00000000#32)
    (hcol : ∀ e : Fin 3200000, col (ix2 e (0 : Fin 1)) = x1 (ix2 (1 : Fin 2) e))
    (hupd : ∀ e : Fin 3200000, upd (ix2 e f) = val_main_v10 (F := Ideal) x0 x1 (ix2 e f)
      * (((IntOp.cmpi .eq (x2 (ix1 e)) (BitVec.ofNat 32 r.val)).toNat : ℝ) : EReal)) :
    Host.scatterAdd (F := Ideal) scatter_S100000x64_S3200000x1_S3200000x64_1_0_0_1 zero col upd (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 r.val)).toNat : ℝ) : EReal)
          else 0 := by
  generalize val_main_v10 (F := Ideal) x0 x1 = G at hupd ⊢
  show Ideal.hostScatterAdd scatter_S100000x64_S3200000x1_S3200000x64_1_0_0_1 zero col upd (ix2 n f) = _
  rw [Scatter.rows_apply _ rfl rfl rfl rfl, hzero]
  refine congrArg (Ideal.ofBits .f32 0x00000000#32 + ·) (Finset.sum_congr rfl fun e _ => ?_)
  rw [hcol e, hupd e]

/-- A scatter-add of one number per edge read at node n, once its three operands are read: a zero array, the
    destination column, and the relation's 0/1 indicator. -/
theorem bins_read (x1 : IVec S2x3200000 32) (x2 : IVec S3200000 32) (r : Fin 8) (n : Fin 100000)
    (zero : FVec Ideal S100000 .f32) (col : IVec S3200000x1 32) (upd : FVec Ideal S3200000 .f32)
    (hzero : zero (ix1 n) = Ideal.ofBits .f32 0x00000000#32)
    (hcol : ∀ e : Fin 3200000, col (ix2 e (0 : Fin 1)) = x1 (ix2 (1 : Fin 2) e))
    (hupd : ∀ e : Fin 3200000, upd (ix1 e)
      = (((IntOp.cmpi .eq (x2 (ix1 e)) (BitVec.ofNat 32 r.val)).toNat : ℝ) : EReal)) :
    Host.scatterAdd (F := Ideal) scatter_S100000_S3200000x1_S3200000_n_0_0_1 zero col upd (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 r.val)).toNat : ℝ) : EReal)
          else 0 := by
  show Ideal.hostScatterAdd scatter_S100000_S3200000x1_S3200000_n_0_0_1 zero col upd (ix1 n) = _
  rw [Scatter.bins_apply _ rfl rfl rfl rfl, hzero]
  refine congrArg (Ideal.ofBits .f32 0x00000000#32 + ·) (Finset.sum_congr rfl fun e _ => ?_)
  rw [hcol e, hupd e]

/-- Relation 0's 0/1 indicator of an edge, as a float: the edge's relation word compared with 0. -/
theorem relation0_indicator (x2 : IVec S3200000 32) (e : Fin 3200000) (p : S3200000.Idx) (hp : (p 0).val = e.val) :
    val_main_v17 (F := Ideal) x2 p
      = (((IntOp.cmpi .eq (x2 (ix1 e)) (BitVec.ofNat 32 (0 : Fin 8).val)).toNat : ℝ) : EReal) := by
  have hpe : p = ix1 e := funext fun d => Fin.ext (by
    match d with
    | ⟨0, _⟩ => exact hp)
  subst hpe
  rw [val_main_v17_apply, val_main_v16_apply, val_main_v15_apply, val_main_c_1_apply]
  rfl

/-- Relation 0's neighbour sums at a node. -/
theorem relation0_sums (x0 : FVec Ideal S100000x64 .f32) (x1 : IVec S2x3200000 32) (x2 : IVec S3200000 32)
    (n : Fin 100000) (f : Fin 64) :
    val_main_v23 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (0 : Fin 8).val)).toNat : ℝ) : EReal)
          else 0 := by
  unfold val_main_v23
  refine rows_read x0 x1 x2 0 n f _ _ _ ?_ (fun e => ?_) (fun e => ?_)
  · rw [val_main_v21_apply, val_main_cst_apply]; rfl
  · rw [val_main_v22_apply]; exact dst_word x1 e _ rfl
  · rw [val_main_v20_apply, val_main_v19_apply, val_main_v18_apply]
    exact congrArg (val_main_v10 (F := Ideal) x0 x1 (ix2 e f) * ·) (relation0_indicator x2 e _ rfl)

/-- Relation 0's in-edge count at a node. -/
theorem relation0_counts (x1 : IVec S2x3200000 32) (x2 : IVec S3200000 32) (n : Fin 100000) :
    val_main_v26 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (0 : Fin 8).val)).toNat : ℝ) : EReal)
          else 0 := by
  unfold val_main_v26
  refine bins_read x1 x2 0 n _ _ _ ?_ (fun e => ?_) (fun e => ?_)
  · rw [val_main_v24_apply, val_main_cst_2_apply]; rfl
  · rw [val_main_v25_apply]; exact dst_word x1 e _ rfl
  · exact relation0_indicator x2 e _ rfl

/-- Relation 1's 0/1 indicator of an edge, as a float: the edge's relation word compared with 1. -/
theorem relation1_indicator (x2 : IVec S3200000 32) (e : Fin 3200000) (p : S3200000.Idx) (hp : (p 0).val = e.val) :
    val_main_v37 (F := Ideal) x2 p
      = (((IntOp.cmpi .eq (x2 (ix1 e)) (BitVec.ofNat 32 (1 : Fin 8).val)).toNat : ℝ) : EReal) := by
  have hpe : p = ix1 e := funext fun d => Fin.ext (by
    match d with
    | ⟨0, _⟩ => exact hp)
  subst hpe
  rw [val_main_v37_apply, val_main_v36_apply, val_main_v35_apply, val_main_c_4_apply]
  rfl

/-- Relation 1's neighbour sums at a node. -/
theorem relation1_sums (x0 : FVec Ideal S100000x64 .f32) (x1 : IVec S2x3200000 32) (x2 : IVec S3200000 32)
    (n : Fin 100000) (f : Fin 64) :
    val_main_v43 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (1 : Fin 8).val)).toNat : ℝ) : EReal)
          else 0 := by
  unfold val_main_v43
  refine rows_read x0 x1 x2 1 n f _ _ _ ?_ (fun e => ?_) (fun e => ?_)
  · rw [val_main_v41_apply, val_main_cst_5_apply]; rfl
  · rw [val_main_v42_apply]; exact dst_word x1 e _ rfl
  · rw [val_main_v40_apply, val_main_v39_apply, val_main_v38_apply]
    exact congrArg (val_main_v10 (F := Ideal) x0 x1 (ix2 e f) * ·) (relation1_indicator x2 e _ rfl)

/-- Relation 1's in-edge count at a node. -/
theorem relation1_counts (x1 : IVec S2x3200000 32) (x2 : IVec S3200000 32) (n : Fin 100000) :
    val_main_v46 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (1 : Fin 8).val)).toNat : ℝ) : EReal)
          else 0 := by
  unfold val_main_v46
  refine bins_read x1 x2 1 n _ _ _ ?_ (fun e => ?_) (fun e => ?_)
  · rw [val_main_v44_apply, val_main_cst_6_apply]; rfl
  · rw [val_main_v45_apply]; exact dst_word x1 e _ rfl
  · exact relation1_indicator x2 e _ rfl

/-- Relation 2's 0/1 indicator of an edge, as a float: the edge's relation word compared with 2. -/
theorem relation2_indicator (x2 : IVec S3200000 32) (e : Fin 3200000) (p : S3200000.Idx) (hp : (p 0).val = e.val) :
    val_main_v57 (F := Ideal) x2 p
      = (((IntOp.cmpi .eq (x2 (ix1 e)) (BitVec.ofNat 32 (2 : Fin 8).val)).toNat : ℝ) : EReal) := by
  have hpe : p = ix1 e := funext fun d => Fin.ext (by
    match d with
    | ⟨0, _⟩ => exact hp)
  subst hpe
  rw [val_main_v57_apply, val_main_v56_apply, val_main_v55_apply, val_main_c_8_apply]
  rfl

/-- Relation 2's neighbour sums at a node. -/
theorem relation2_sums (x0 : FVec Ideal S100000x64 .f32) (x1 : IVec S2x3200000 32) (x2 : IVec S3200000 32)
    (n : Fin 100000) (f : Fin 64) :
    val_main_v63 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (2 : Fin 8).val)).toNat : ℝ) : EReal)
          else 0 := by
  unfold val_main_v63
  refine rows_read x0 x1 x2 2 n f _ _ _ ?_ (fun e => ?_) (fun e => ?_)
  · rw [val_main_v61_apply, val_main_cst_9_apply]; rfl
  · rw [val_main_v62_apply]; exact dst_word x1 e _ rfl
  · rw [val_main_v60_apply, val_main_v59_apply, val_main_v58_apply]
    exact congrArg (val_main_v10 (F := Ideal) x0 x1 (ix2 e f) * ·) (relation2_indicator x2 e _ rfl)

/-- Relation 2's in-edge count at a node. -/
theorem relation2_counts (x1 : IVec S2x3200000 32) (x2 : IVec S3200000 32) (n : Fin 100000) :
    val_main_v66 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (2 : Fin 8).val)).toNat : ℝ) : EReal)
          else 0 := by
  unfold val_main_v66
  refine bins_read x1 x2 2 n _ _ _ ?_ (fun e => ?_) (fun e => ?_)
  · rw [val_main_v64_apply, val_main_cst_10_apply]; rfl
  · rw [val_main_v65_apply]; exact dst_word x1 e _ rfl
  · exact relation2_indicator x2 e _ rfl

/-- Relation 3's 0/1 indicator of an edge, as a float: the edge's relation word compared with 3. -/
theorem relation3_indicator (x2 : IVec S3200000 32) (e : Fin 3200000) (p : S3200000.Idx) (hp : (p 0).val = e.val) :
    val_main_v77 (F := Ideal) x2 p
      = (((IntOp.cmpi .eq (x2 (ix1 e)) (BitVec.ofNat 32 (3 : Fin 8).val)).toNat : ℝ) : EReal) := by
  have hpe : p = ix1 e := funext fun d => Fin.ext (by
    match d with
    | ⟨0, _⟩ => exact hp)
  subst hpe
  rw [val_main_v77_apply, val_main_v76_apply, val_main_v75_apply, val_main_c_12_apply]
  rfl

/-- Relation 3's neighbour sums at a node. -/
theorem relation3_sums (x0 : FVec Ideal S100000x64 .f32) (x1 : IVec S2x3200000 32) (x2 : IVec S3200000 32)
    (n : Fin 100000) (f : Fin 64) :
    val_main_v83 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (3 : Fin 8).val)).toNat : ℝ) : EReal)
          else 0 := by
  unfold val_main_v83
  refine rows_read x0 x1 x2 3 n f _ _ _ ?_ (fun e => ?_) (fun e => ?_)
  · rw [val_main_v81_apply, val_main_cst_13_apply]; rfl
  · rw [val_main_v82_apply]; exact dst_word x1 e _ rfl
  · rw [val_main_v80_apply, val_main_v79_apply, val_main_v78_apply]
    exact congrArg (val_main_v10 (F := Ideal) x0 x1 (ix2 e f) * ·) (relation3_indicator x2 e _ rfl)

/-- Relation 3's in-edge count at a node. -/
theorem relation3_counts (x1 : IVec S2x3200000 32) (x2 : IVec S3200000 32) (n : Fin 100000) :
    val_main_v86 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (3 : Fin 8).val)).toNat : ℝ) : EReal)
          else 0 := by
  unfold val_main_v86
  refine bins_read x1 x2 3 n _ _ _ ?_ (fun e => ?_) (fun e => ?_)
  · rw [val_main_v84_apply, val_main_cst_14_apply]; rfl
  · rw [val_main_v85_apply]; exact dst_word x1 e _ rfl
  · exact relation3_indicator x2 e _ rfl

/-- Relation 4's 0/1 indicator of an edge, as a float: the edge's relation word compared with 4. -/
theorem relation4_indicator (x2 : IVec S3200000 32) (e : Fin 3200000) (p : S3200000.Idx) (hp : (p 0).val = e.val) :
    val_main_v97 (F := Ideal) x2 p
      = (((IntOp.cmpi .eq (x2 (ix1 e)) (BitVec.ofNat 32 (4 : Fin 8).val)).toNat : ℝ) : EReal) := by
  have hpe : p = ix1 e := funext fun d => Fin.ext (by
    match d with
    | ⟨0, _⟩ => exact hp)
  subst hpe
  rw [val_main_v97_apply, val_main_v96_apply, val_main_v95_apply, val_main_c_16_apply]
  rfl

/-- Relation 4's neighbour sums at a node. -/
theorem relation4_sums (x0 : FVec Ideal S100000x64 .f32) (x1 : IVec S2x3200000 32) (x2 : IVec S3200000 32)
    (n : Fin 100000) (f : Fin 64) :
    val_main_v103 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (4 : Fin 8).val)).toNat : ℝ) : EReal)
          else 0 := by
  unfold val_main_v103
  refine rows_read x0 x1 x2 4 n f _ _ _ ?_ (fun e => ?_) (fun e => ?_)
  · rw [val_main_v101_apply, val_main_cst_17_apply]; rfl
  · rw [val_main_v102_apply]; exact dst_word x1 e _ rfl
  · rw [val_main_v100_apply, val_main_v99_apply, val_main_v98_apply]
    exact congrArg (val_main_v10 (F := Ideal) x0 x1 (ix2 e f) * ·) (relation4_indicator x2 e _ rfl)

/-- Relation 4's in-edge count at a node. -/
theorem relation4_counts (x1 : IVec S2x3200000 32) (x2 : IVec S3200000 32) (n : Fin 100000) :
    val_main_v106 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (4 : Fin 8).val)).toNat : ℝ) : EReal)
          else 0 := by
  unfold val_main_v106
  refine bins_read x1 x2 4 n _ _ _ ?_ (fun e => ?_) (fun e => ?_)
  · rw [val_main_v104_apply, val_main_cst_18_apply]; rfl
  · rw [val_main_v105_apply]; exact dst_word x1 e _ rfl
  · exact relation4_indicator x2 e _ rfl

/-- Relation 5's 0/1 indicator of an edge, as a float: the edge's relation word compared with 5. -/
theorem relation5_indicator (x2 : IVec S3200000 32) (e : Fin 3200000) (p : S3200000.Idx) (hp : (p 0).val = e.val) :
    val_main_v117 (F := Ideal) x2 p
      = (((IntOp.cmpi .eq (x2 (ix1 e)) (BitVec.ofNat 32 (5 : Fin 8).val)).toNat : ℝ) : EReal) := by
  have hpe : p = ix1 e := funext fun d => Fin.ext (by
    match d with
    | ⟨0, _⟩ => exact hp)
  subst hpe
  rw [val_main_v117_apply, val_main_v116_apply, val_main_v115_apply, val_main_c_20_apply]
  rfl

/-- Relation 5's neighbour sums at a node. -/
theorem relation5_sums (x0 : FVec Ideal S100000x64 .f32) (x1 : IVec S2x3200000 32) (x2 : IVec S3200000 32)
    (n : Fin 100000) (f : Fin 64) :
    val_main_v123 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (5 : Fin 8).val)).toNat : ℝ) : EReal)
          else 0 := by
  unfold val_main_v123
  refine rows_read x0 x1 x2 5 n f _ _ _ ?_ (fun e => ?_) (fun e => ?_)
  · rw [val_main_v121_apply, val_main_cst_21_apply]; rfl
  · rw [val_main_v122_apply]; exact dst_word x1 e _ rfl
  · rw [val_main_v120_apply, val_main_v119_apply, val_main_v118_apply]
    exact congrArg (val_main_v10 (F := Ideal) x0 x1 (ix2 e f) * ·) (relation5_indicator x2 e _ rfl)

/-- Relation 5's in-edge count at a node. -/
theorem relation5_counts (x1 : IVec S2x3200000 32) (x2 : IVec S3200000 32) (n : Fin 100000) :
    val_main_v126 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (5 : Fin 8).val)).toNat : ℝ) : EReal)
          else 0 := by
  unfold val_main_v126
  refine bins_read x1 x2 5 n _ _ _ ?_ (fun e => ?_) (fun e => ?_)
  · rw [val_main_v124_apply, val_main_cst_22_apply]; rfl
  · rw [val_main_v125_apply]; exact dst_word x1 e _ rfl
  · exact relation5_indicator x2 e _ rfl

/-- Relation 6's 0/1 indicator of an edge, as a float: the edge's relation word compared with 6. -/
theorem relation6_indicator (x2 : IVec S3200000 32) (e : Fin 3200000) (p : S3200000.Idx) (hp : (p 0).val = e.val) :
    val_main_v137 (F := Ideal) x2 p
      = (((IntOp.cmpi .eq (x2 (ix1 e)) (BitVec.ofNat 32 (6 : Fin 8).val)).toNat : ℝ) : EReal) := by
  have hpe : p = ix1 e := funext fun d => Fin.ext (by
    match d with
    | ⟨0, _⟩ => exact hp)
  subst hpe
  rw [val_main_v137_apply, val_main_v136_apply, val_main_v135_apply, val_main_c_24_apply]
  rfl

/-- Relation 6's neighbour sums at a node. -/
theorem relation6_sums (x0 : FVec Ideal S100000x64 .f32) (x1 : IVec S2x3200000 32) (x2 : IVec S3200000 32)
    (n : Fin 100000) (f : Fin 64) :
    val_main_v143 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (6 : Fin 8).val)).toNat : ℝ) : EReal)
          else 0 := by
  unfold val_main_v143
  refine rows_read x0 x1 x2 6 n f _ _ _ ?_ (fun e => ?_) (fun e => ?_)
  · rw [val_main_v141_apply, val_main_cst_25_apply]; rfl
  · rw [val_main_v142_apply]; exact dst_word x1 e _ rfl
  · rw [val_main_v140_apply, val_main_v139_apply, val_main_v138_apply]
    exact congrArg (val_main_v10 (F := Ideal) x0 x1 (ix2 e f) * ·) (relation6_indicator x2 e _ rfl)

/-- Relation 6's in-edge count at a node. -/
theorem relation6_counts (x1 : IVec S2x3200000 32) (x2 : IVec S3200000 32) (n : Fin 100000) :
    val_main_v146 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (6 : Fin 8).val)).toNat : ℝ) : EReal)
          else 0 := by
  unfold val_main_v146
  refine bins_read x1 x2 6 n _ _ _ ?_ (fun e => ?_) (fun e => ?_)
  · rw [val_main_v144_apply, val_main_cst_26_apply]; rfl
  · rw [val_main_v145_apply]; exact dst_word x1 e _ rfl
  · exact relation6_indicator x2 e _ rfl

/-- Relation 7's 0/1 indicator of an edge, as a float: the edge's relation word compared with 7. -/
theorem relation7_indicator (x2 : IVec S3200000 32) (e : Fin 3200000) (p : S3200000.Idx) (hp : (p 0).val = e.val) :
    val_main_v157 (F := Ideal) x2 p
      = (((IntOp.cmpi .eq (x2 (ix1 e)) (BitVec.ofNat 32 (7 : Fin 8).val)).toNat : ℝ) : EReal) := by
  have hpe : p = ix1 e := funext fun d => Fin.ext (by
    match d with
    | ⟨0, _⟩ => exact hp)
  subst hpe
  rw [val_main_v157_apply, val_main_v156_apply, val_main_v155_apply, val_main_c_28_apply]
  rfl

/-- Relation 7's neighbour sums at a node. -/
theorem relation7_sums (x0 : FVec Ideal S100000x64 .f32) (x1 : IVec S2x3200000 32) (x2 : IVec S3200000 32)
    (n : Fin 100000) (f : Fin 64) :
    val_main_v163 (F := Ideal) x0 x1 x2 (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 (7 : Fin 8).val)).toNat : ℝ) : EReal)
          else 0 := by
  unfold val_main_v163
  refine rows_read x0 x1 x2 7 n f _ _ _ ?_ (fun e => ?_) (fun e => ?_)
  · rw [val_main_v161_apply, val_main_cst_29_apply]; rfl
  · rw [val_main_v162_apply]; exact dst_word x1 e _ rfl
  · rw [val_main_v160_apply, val_main_v159_apply, val_main_v158_apply]
    exact congrArg (val_main_v10 (F := Ideal) x0 x1 (ix2 e f) * ·) (relation7_indicator x2 e _ rfl)

/-- Relation 7's in-edge count at a node. -/
theorem relation7_counts (x1 : IVec S2x3200000 32) (x2 : IVec S3200000 32) (n : Fin 100000) :
    val_main_v166 (F := Ideal) x1 x2 (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 (7 : Fin 8).val)).toNat : ℝ) : EReal)
          else 0 := by
  unfold val_main_v166
  refine bins_read x1 x2 7 n _ _ _ ?_ (fun e => ?_) (fun e => ?_)
  · rw [val_main_v164_apply, val_main_cst_30_apply]; rfl
  · rw [val_main_v165_apply]; exact dst_word x1 e _ rfl
  · exact relation7_indicator x2 e _ rfl

/-- Relation r's neighbour sums at node n, feature f. -/
theorem relSums_apply (x0 : FVec Ideal S100000x64 .f32) (x1 : IVec S2x3200000 32) (x2 : IVec S3200000 32)
    (r : Fin 8) (n : Fin 100000) (f : Fin 64) :
    RefRead.relSums x0 x1 x2 r (ix2 n f)
      = Ideal.ofBits .f32 0x00000000#32 + ∑ e : Fin 3200000,
          if (x1 (ix2 (1 : Fin 2) e)).toInt = (n.val : Int)
          then val_main_v10 (F := Ideal) x0 x1 (ix2 e f)
            * (((IntOp.cmpi .eq (x2 (ix1 e)) (BitVec.ofNat 32 r.val)).toNat : ℝ) : EReal)
          else 0 := by
  match r with
  | 0 => exact relation0_sums x0 x1 x2 n f
  | 1 => exact relation1_sums x0 x1 x2 n f
  | 2 => exact relation2_sums x0 x1 x2 n f
  | 3 => exact relation3_sums x0 x1 x2 n f
  | 4 => exact relation4_sums x0 x1 x2 n f
  | 5 => exact relation5_sums x0 x1 x2 n f
  | 6 => exact relation6_sums x0 x1 x2 n f
  | 7 => exact relation7_sums x0 x1 x2 n f

/-- Relation r's in-edge count at node n. -/
theorem relCounts_apply (x1 : IVec S2x3200000 32) (x2 : IVec S3200000 32) (r : Fin 8) (n : Fin 100000) :
    RefRead.relCounts x1 x2 r (ix1 n)
      = Ideal.ofBits .f32 0x00000000#32 + ∑ e : Fin 3200000,
          if (x1 (ix2 (1 : Fin 2) e)).toInt = (n.val : Int)
          then (((IntOp.cmpi .eq (x2 (ix1 e)) (BitVec.ofNat 32 r.val)).toNat : ℝ) : EReal)
          else 0 := by
  match r with
  | 0 => exact relation0_counts x1 x2 n
  | 1 => exact relation1_counts x1 x2 n
  | 2 => exact relation2_counts x1 x2 n
  | 3 => exact relation3_counts x1 x2 n
  | 4 => exact relation4_counts x1 x2 n
  | 5 => exact relation5_counts x1 x2 n
  | 6 => exact relation6_counts x1 x2 n
  | 7 => exact relation7_counts x1 x2 n

end Cert.Rgcn.RefBins

end
-- ==== Proof.Bridge.lean ====
/-
  The two programs compute the same array.

  Under the precondition every destination word is a node and every relation word one of the eight, so the combined
  bin word 8·dst + rel names bin 8·n + r exactly when dst = n and rel = r: the kernel's sums and counts over the
  combined bins are the reference's per-relation sums and counts, edge by edge.  With that, the fused form the tiled
  region computes is the relation-by-relation form the reference computes.
-/
import proofs.«420744_j1262720385450_3_alg».proof.Proof.Algebra
import proofs.«420744_j1262720385450_3_alg».proof.Proof.Scatter
import proofs.«420744_j1262720385450_3_alg».proof.Proof.KernelSums
import proofs.«420744_j1262720385450_3_alg».proof.Proof.KernelCounts
import proofs.«420744_j1262720385450_3_alg».proof.Proof.KernelLayout
import proofs.«420744_j1262720385450_3_alg».proof.Proof.KernelOnehot
import proofs.«420744_j1262720385450_3_alg».proof.Proof.RefBins

noncomputable section

open scoped BigOperators

namespace Cert.Rgcn.Bridge

open Idealize.ShloMosaic Idealize.ShloMosaic.ValueIdx Cert.Rgcn Cert.Rgcn.KernelHost

/-- The gathered source rows are the same array in both programs (a change of float format is the identity). -/
theorem xs_eq (x0 : FVec Ideal Cert.KernelIdeal.S100000x64 .f32) (x1 : IVec Cert.KernelIdeal.S2x3200000 32) :
    xsK x0 x1 = Cert.ReferenceIdeal.Read.val_main_v10 (F := Ideal) x0 x1 := rfl

/-- The fused form of the kernel's host arrays is the relation-by-relation form of the reference's scatter-adds. -/
theorem fused_eq (x0 : FVec Ideal Cert.KernelIdeal.S100000x64 .f32) (x1 : IVec Cert.KernelIdeal.S2x3200000 32)
    (x2 : IVec Cert.KernelIdeal.S3200000 32) (x3 : FVec Ideal Cert.KernelIdeal.S8x64x64 .f32)
    (x4 : FVec Ideal Cert.KernelIdeal.S64x64 .f32) (x5 : FVec Ideal Cert.KernelIdeal.S64 .f32)
    (hd : ∀ e : Fin 3200000, (x1 (ix2 (1 : Fin 2) e)).toNat < 100000) (hr : ∀ e : Fin 3200000, (x2 (ix1 e)).toNat < 8) :
    fusedOut x0 (sumsCatK x0 x1 x2) (invK x1 x2) onehotK x4 (wcatK x3) (biasRowK x5)
      = relOut (RefRead.relSums x0 x1 x2) (RefRead.relCounts x1 x2) x0 x3 x4 x5 := by
  refine fused_eq_rel (RefRead.relSums x0 x1 x2) (RefRead.relCounts x1 x2) x0 x3 x4 x5 (sumsCatK x0 x1 x2) (invK x1 x2)
    onehotK (wcatK x3) (biasRowK x5) ?_ ?_ KernelBins.onehotK_apply (KernelBins.wcatK_apply x3) (KernelBins.biasRowK_apply x5)
  · intro n r f
    rw [KernelBins.sumsCatK_apply, RefBins.relSums_apply]
    refine congrArg₂ (· + ·) rfl (Finset.sum_congr rfl fun e _ => ?_)
    rw [Scatter.term_eq _ _ (hd e) (hr e) n r, xs_eq]
  · intro n r
    rw [KernelBins.invK_apply, RefBins.relCounts_apply]
    refine congrArg (fun s => Ideal.div one32 (max one32 (Ideal.ofBits .f32 0x00000000#32 + s)))
      (Finset.sum_congr rfl fun e _ => ?_)
    rw [Scatter.term_eq _ _ (hd e) (hr e) n r, one32_eq, one_mul]

end Cert.Rgcn.Bridge

end
-- ==== Proof.lean ====
/-
  A relational graph convolution with mean aggregation, two ways.

  For every node n the result row is x[n] · root + bias + Σ_r (mean over the in-edges of n of relation r of x[src]) · W[r].
  The reference forms, relation by relation, the neighbour sums and the in-edge counts by scatter-adds over the
  destination nodes, divides the sums by the counts clipped at one, multiplies by W[r] and adds the eight terms one
  after the other.  The kernel scatter-adds the gathered rows and ones ONCE, over the combined bins 8 · dst + rel, hands
  the sums (as rows of 8 · 64 entries), the reciprocal clipped counts, a 0/1 matrix that spreads a relation's reciprocal
  count over its 64 columns, the root weight, the eight W[r] stacked and the bias row to a region tiled over the nodes,
  which computes x · root + (sums ∗ (recip · spread)) · stacked + bias block by block.

  Over the extended reals the two agree once every destination word is a node (0 ≤ dst < 100000) and every relation
  word is one of the eight (0 ≤ rel < 8), which the precondition states: then 8 · dst + rel neither wraps nor leaves
  the bins, and names bin 8 · n + r exactly when dst = n and rel = r.  No finiteness is used: a product with the
  indicator 0/1 and with the reciprocal of a non-zero count, and a sum taken in another order, are equal on all
  extended reals.  The frames of the two kernel programs are the generated ones; the reference's is its generated run.
-/
import proofs.«420744_j1262720385450_3_alg».proof.Defs
import proofs.«420744_j1262720385450_3_alg».proof.Proof.Gen.Kernel
import proofs.«420744_j1262720385450_3_alg».proof.Proof.Gen.Kernel.Skeleton
import proofs.«420744_j1262720385450_3_alg».proof.Proof.Gen.Kernel.Launch
import proofs.«420744_j1262720385450_3_alg».proof.Proof.Gen.Kernel.Points
import proofs.«420744_j1262720385450_3_alg».proof.Proof.Gen.Kernel.Frame
import proofs.«420744_j1262720385450_3_alg».proof.Proof.Gen.KernelIdeal
import proofs.«420744_j1262720385450_3_alg».proof.Proof.Gen.KernelIdeal.Skeleton
import proofs.«420744_j1262720385450_3_alg».proof.Proof.Gen.KernelIdeal.Launch
import proofs.«420744_j1262720385450_3_alg».proof.Proof.Gen.KernelIdeal.Points
import proofs.«420744_j1262720385450_3_alg».proof.Proof.Gen.KernelIdeal.Frame
import proofs.«420744_j1262720385450_3_alg».proof.Proof.Gen.ReferenceIdeal
import proofs.«420744_j1262720385450_3_alg».proof.Proof.Gen.Pre_finite_inputs
import proofs.«420744_j1262720385450_3_alg».proof.Proof.Gen.KernelIdeal.Value
import proofs.«420744_j1262720385450_3_alg».proof.Proof.Gen.ReferenceIdeal.Run
import proofs.«420744_j1262720385450_3_alg».proof.Proof.Gen.ReferenceIdeal.Read
import proofs.«420744_j1262720385450_3_alg».proof.Proof.KernelArray
import proofs.«420744_j1262720385450_3_alg».proof.Proof.KernelHostSums
import proofs.«420744_j1262720385450_3_alg».proof.Proof.KernelHostInv
import proofs.«420744_j1262720385450_3_alg».proof.Proof.KernelHostOnehot
import proofs.«420744_j1262720385450_3_alg».proof.Proof.PreDecode
import proofs.«420744_j1262720385450_3_alg».proof.Proof.Bridge
import Idealize.ShloMosaic.Adequacy
import Idealize.ShloMosaic.Init

noncomputable section

namespace Cert.Proof

open Idealize.ShloMosaic Idealize.SL.Sem Idealize.ShloMosaic.TcCoe Cert.Rgcn

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the relation-by-relation form of the launch arrays in their result. -/
theorem algebraic : Cert.algebraic_KernelIdeal_ReferenceIdeal := by
  intro m ρ m' ρ' hpre hagree
  refine ⟨fun c => relOut
      (RefRead.relSums (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (RefRead.relCounts (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (KernelArray.run m ρ)
    obtain ⟨hd, hr⟩ := PreDecode.ranges _ _ _ _ _ _ (hpre c)
    rw [Cert.KernelIdeal.Gen.V_main_arg0, KernelHost.V_sumsCat, KernelHost.V_inv, KernelHost.V_onehot,
      Cert.KernelIdeal.Gen.V_main_arg4, KernelHost.V_wcat, KernelHost.V_biasRow]
    exact Bridge.fused_eq _ _ _ _ _ _ hd hr
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v174_eq, RefRead.result_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
